-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x1 : Shape := ⟨2, ![1, 1]⟩
abbrev S100000x2 : Shape := ⟨2, ![100000, 2]⟩
abbrev S5000x2 : Shape := ⟨2, ![5000, 2]⟩
abbrev S5000x1 : Shape := ⟨2, ![5000, 1]⟩

abbrev nBuf : Space → Nat
  | .hbm => 91
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S1x1, .f32⟩
  | .hbm, ⟨90, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x1, .f32⟩
  | .local _ .vmem, ⟨23, _⟩ => ⟨S1x1, .f32⟩
  | .local _ .vmem, ⟨24, _⟩ => ⟨S5000x2, .f32⟩
  | .local _ .vmem, ⟨25, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩
abbrev S100000x2 : Shape := ⟨2, ![100000, 2]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S100000_S100000x1_0 : S100000.BroadcastsInDim S100000x1 (![0] : Fin 1 → Fin S100000x1.rank)
  concatenates_S100000x1_S100000x1_S100000x2_d1 : Shape.Concatenates [S100000x1, S100000x1] S100000x2 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The function both programs compute, written once. A two-layer graph convolution with a linear head over
  n = 100000 nodes and 1700000 edges (the given 1600000 edges followed by one self-loop per node):

    h₁  = max (A (x · W₀) + b₀) 0          -- [n, 128]
    h₂  = max (A (h₁ · W₁) + b₁) 0         -- [n, 64]
    z   = h₂ · Wl + bl                     -- [n]
    out = [-z, z]                          -- [n, 2]

  where the aggregation `A` gathers the rows of its argument at the edges' source nodes, scales row `e` by the
  edge's weight `norm e`, and adds it into the row of the edge's target node. The edge lists `src`, `dst` and the
  weights `norm` depend on the edge input only; here they are parameters of the aggregation, so that nothing about
  how they are computed is ever opened: the two programs compute them by the same operations, and they meet the
  aggregation as the same three arrays.

  Each stage below is spelled with the operations the reference applies (a product as the host's contraction over
  the shared axis, the bias as a one-row matrix broadcast along the rows, the rectifier as the maximum with a
  broadcast zero), so that the reference's last stage is `out` by unfolding names (`ref_eq`). The kernel reaches
  the same stages through its five tiled regions; that is proved elsewhere.
-/
import proofs.«158951_j8383776162491_1_alg».proof.Proof.RefRead

noncomputable section

namespace Cert.Gcn

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first layer's product `x · W₀`: entry (i, j) is the sum over k of `x (i, k) * w (k, j)`. -/
def mm128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The second layer's product `h₁ · W₁`. -/
def mm64 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- A node index as the gather takes it: a negative index counted from the end (`s + n`), as a one-column matrix. -/
def wrap (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The aggregation over rows of width 128: row `d e` of the result collects `norm e` times row `s e` of `hw`,
    summed over the edges `e`, from an all-zero array. -/
def aggr128 (s d : (⟨S1700000, .i32⟩ : BufTy).Contents (Elt F)) (n : (⟨S1700000, .f32⟩ : BufTy).Contents (Elt F)) (hw : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 hw (wrap s))
      (broadcastInDim S1700000x128 ![0, 1] bcast_S1700000x1_S1700000x128_0_1 (broadcastInDim S1700000x1 ![0] bcast_S1700000_S1700000x1_0 n)))

/-- The same aggregation over rows of width 64. -/
def aggr64 (s d : (⟨S1700000, .i32⟩ : BufTy).Contents (Elt F)) (n : (⟨S1700000, .f32⟩ : BufTy).Contents (Elt F)) (hw : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (Host.gather gather_S100000x64_S1700000x1_S1700000x64_1_0_n_n_0_1_164 hw (wrap s))
      (broadcastInDim S1700000x64 ![0, 1] bcast_S1700000x1_S1700000x64_0_1 (broadcastInDim S1700000x1 ![0] bcast_S1700000_S1700000x1_0 n)))

/-- Bias and rectifier at width 128: entry (i, j) is `max (a (i, j) + b (0, j)) 0`, the bias a one-row matrix. -/
def br128 (a : (⟨S100000x128, .f32⟩ : BufTy).Contents (Elt F)) (b : (⟨S1x128, .f32⟩ : BufTy).Contents (Elt F)) : (⟨S100000x128, .f32⟩ : BufTy).Contents (Elt F) :=
  maximumf (addf a (broadcastInDim S100000x128 ![0, 1] bcast_S1x128_S100000x128_0_1 b))
    (broadcastInDim S100000x128 ![] bcast_S_S100000x128 (constant S_ .f32 0x00000000#32))

/-- Bias and rectifier at width 64. -/
def br64 (a : (⟨S100000x64, .f32⟩ : BufTy).Contents (Elt F)) (b : (⟨S1x64, .f32⟩ : BufTy).Contents (Elt F)) : (⟨S100000x64, .f32⟩ : BufTy).Contents (Elt F) :=
  maximumf (addf a (broadcastInDim S100000x64 ![0, 1] bcast_S1x64_S100000x64_0_1 b))
    (broadcastInDim S100000x64 ![] bcast_S_S100000x64 (constant S_ .f32 0x00000000#32))

/-- The head's score per node: `z i = (∑ k, h (i, k) * wl (k, 0)) + b (0, 0)`, the bias a one-by-one matrix. -/
def logits (h : (⟨S100000x64, .f32⟩ : BufTy).Contents (Elt F)) (wl : (⟨S64x1, .f32⟩ : BufTy).Contents (Elt F)) (b : (⟨S1x1, .f32⟩ : BufTy).Contents (Elt F)) : (⟨S100000, .f32⟩ : BufTy).Contents (Elt F) :=
  shapeCast _ (addf (Host.dotGeneral dot_S100000x64_S64x1_S100000x1_1_0_0_1_n_n none h wl)
    (broadcastInDim S100000x1 ![0, 1] bcast_S1x1_S100000x1_0_1 b)) shapeCasts_S100000x1_S100000

/-- The head's two columns: `-z` beside `z`. -/
def head (h : (⟨S100000x64, .f32⟩ : BufTy).Contents (Elt F)) (wl : (⟨S64x1, .f32⟩ : BufTy).Contents (Elt F)) (b : (⟨S1x1, .f32⟩ : BufTy).Contents (Elt F)) : (⟨S100000x2, .f32⟩ : BufTy).Contents (Elt F) :=
  concatenate S100000x2 1
    [⟨S100000x1, (broadcastInDim S100000x1 ![0] bcast_S100000_S100000x1_0 (Host.negf (logits h wl b)))⟩,
     ⟨S100000x1, (broadcastInDim S100000x1 ![0] bcast_S100000_S100000x1_0 (logits h wl b))⟩]
    concatenates_S100000x1_S100000x1_S100000x2_d1

/-- The whole network from the edge lists and weights `s`, `d`, `n` and the seven float arguments, the three biases
    already as one-row matrices. -/
def net (s d : (⟨S1700000, .i32⟩ : BufTy).Contents (Elt F)) (n : (⟨S1700000, .f32⟩ : BufTy).Contents (Elt F))
    (x : (⟨S100000x128, .f32⟩ : BufTy).Contents (Elt F)) (w0 : (⟨S128x128, .f32⟩ : BufTy).Contents (Elt F)) (b0 : (⟨S1x128, .f32⟩ : BufTy).Contents (Elt F))
    (w1 : (⟨S128x64, .f32⟩ : BufTy).Contents (Elt F)) (b1 : (⟨S1x64, .f32⟩ : BufTy).Contents (Elt F)) (wl : (⟨S64x1, .f32⟩ : BufTy).Contents (Elt F)) (bl : (⟨S1x1, .f32⟩ : BufTy).Contents (Elt F)) : (⟨S100000x2, .f32⟩ : BufTy).Contents (Elt F) :=
  head (br64 (aggr64 s d n (mm64 (br128 (aggr128 s d n (mm128 x w0)) b0) w1)) b1) wl bl

/-- The network of the eight arguments: the edge lists and weights as the reference computes them from the edge
    input, each bias vector laid out as one row. -/
def out (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) (x6 : (⟨S64x1, .f32⟩ : BufTy).Contents (Elt F)) (x7 : (⟨S1, .f32⟩ : BufTy).Contents (Elt F)) : (⟨S100000x2, .f32⟩ : BufTy).Contents (Elt F) :=
  net (val_main_v3 (F := F) x1) (val_main_v6 (F := F) x1) (val_main_v31 (F := F) x1) x0 x2 (val_main_v46 (F := F) x3) x4 (val_main_v64 (F := F) x5) x6 (val_main_v69 (F := F) x7)

/-- The reference's last stage is the network: its stages between the products, the bias-and-rectifier steps and the
    head are the operations `aggr128`, `aggr64`, `br128`, `br64` and `head` spell, one for one. -/
theorem ref_eq (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) (x6 : (⟨S64x1, .f32⟩ : BufTy).Contents (Elt F)) (x7 : (⟨S1, .f32⟩ : BufTy).Contents (Elt F)) :
    val_main_v76 (F := F) x0 x1 x2 x3 x4 x5 x6 x7 = out (F := F) x0 x1 x2 x3 x4 x5 x6 x7 := by
  unfold out net head logits br64 aggr64 mm64 br128 aggr128 mm128 wrap
  unfold val_main_v76 val_main_v75 val_main_v74 val_main_v73 val_main_v72 val_main_v71 val_main_v70 val_main_v68
  unfold val_main_v67 val_main_v66 val_main_v65 val_main_call2_v0 val_main_call2_cst
  unfold val_main_v63 val_main_v62 val_main_v61 val_main_cst_12 val_main_v60 val_main_v59 val_main_v58 val_main_v57 val_main_v56 val_main_v55 val_main_v54 val_main_v53 val_main_c_11 val_main_v52 val_main_v51 val_main_c_10
  unfold val_main_v50 val_main_v49 val_main_v48 val_main_v47 val_main_call1_v0 val_main_call1_cst
  unfold val_main_v45 val_main_v44 val_main_v43 val_main_cst_9 val_main_v42 val_main_v41 val_main_v40 val_main_v39 val_main_v38 val_main_v37 val_main_v36 val_main_v35 val_main_c_8 val_main_v34 val_main_v33 val_main_c_7
  unfold val_main_v32
  rfl

end Cert.Gcn

end
-- ==== Proof.LibRow.lean ====
/-
  A vector laid out as one row. Two operations turn a vector `v` of extent `a` into the one-row matrix
  `[1, a]`: a reshape, which keeps the row-major order, and a broadcast that places the vector's axis on the
  matrix's second axis. Read at an index `j = (0, q)` both give `v q`, so they are the same matrix, for any extent
  (the extent one included: there both read `v 0`) and any element type.
-/
import Idealize.ShloMosaic.Lib.Pipeline.Value

namespace Idealize.ShloMosaic.LibRow

open Idealize.ShloMosaic

variable {α : Type}

/-- The index of the vector an index of its one-row matrix reads: the matrix's second coordinate. -/
def rowIdx (a : Nat) (j : (⟨2, ![1, a]⟩ : Shape).Idx) : (⟨1, ![a]⟩ : Shape).Idx := fun b => j b.succ

/-- A vector RESHAPED to one row, read at `j`, is the vector at `j`'s second coordinate. -/
theorem shapeCast_row_apply (a : Nat) (v : (⟨1, ![a]⟩ : Shape).Idx → α)
    (h : (⟨1, ![a]⟩ : Shape).ShapeCasts ⟨2, ![1, a]⟩) (j : (⟨2, ![1, a]⟩ : Shape).Idx) :
    shapeCast ⟨2, ![1, a]⟩ v h j = v (rowIdx a j) :=
  shapeCast_addUnit_apply (n := 1) ![a] v h j

/-- A vector BROADCAST to one row along the second axis, read at `j`, is the vector at `j`'s second coordinate. -/
theorem broadcastInDim_row_apply (a : Nat) (v : (⟨1, ![a]⟩ : Shape).Idx → α)
    (h : (⟨1, ![a]⟩ : Shape).BroadcastsInDim ⟨2, ![1, a]⟩ ![1]) (j : (⟨2, ![1, a]⟩ : Shape).Idx) :
    broadcastInDim ⟨2, ![1, a]⟩ ![1] h v j = v (rowIdx a j) := by
  refine broadcastInDim_apply ![1] h v j (rowIdx a j) (fun b => ?_)
  have hb : b = 0 := Subsingleton.elim _ _
  subst hb
  show (j 1).val = if a = 1 then 0 else (j 1).val
  by_cases ha : a = 1
  · rw [if_pos ha]
    have hj : (j 1).val < a := (j 1).isLt
    omega
  · rw [if_neg ha]

/-- The reshape to one row IS the broadcast to one row. -/
theorem shapeCast_row_eq_broadcastInDim (a : Nat) (v : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ v h = broadcastInDim ⟨2, ![1, a]⟩ ![1] hb v :=
  funext fun j => (shapeCast_row_apply a v h j).trans (broadcastInDim_row_apply a v hb j).symm

end Idealize.ShloMosaic.LibRow
-- ==== Proof.Prefix.lean ====
/- The edge lists and the edge weights. Before the first region @main computes, from the edge input alone, the
   source list `src` and the target list `dst` (the given edges followed by one self-loop per node) and the weights
   `norm e = dinv (src e) * dinv (dst e)`, where `dinv` is the inverse square root of a node's degree (and zero where the
   degree is zero). The reference computes the same three arrays by the same operations; here each is read off the
   kernel's first three stretches of host operations, stage by stage, and met with the reference's stage of the same
   name. Nothing about what these operations compute is used: only that the two programs apply the same ones. -/
import proofs.«158951_j8383776162491_1_alg».proof.Proof.Gen.KernelIdeal.Frame
import proofs.«158951_j8383776162491_1_alg».proof.Proof.Spec

set_option maxRecDepth 16384

noncomputable section

namespace Cert.KernelIdeal.Prefix

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- A buffer that no operation of a stretch writes holds after the stretch what it held before. -/
macro "stretch_keeps" : tactic => `(tactic|
  (refine StableHlo.after_of_forall_not_mem _ _ (List.forall_iff_forall_mem.mp ?_)
   simp only [hostOps0, hostOps0_1, hostOps0_2, hostOps1, hostOps3, hostOps4, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## After the first stretch -/

/-- The source list: the first row of the edge input, then the nodes' own indices. -/
theorem src_W1 : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results
  unfold val_main_v3 val_main_v2 val_main_v1 val_main_v0
  rfl

/-- The target list: the second row of the edge input, then the nodes' own indices. -/
theorem dst_W1 : W1 m ρ c (Proc.devRef .tc main_v6) = val_main_v6 (F := Ideal) (m ((c.tc : Thread nD τ).loc main_arg1)) := by
  show StableHlo.after hostOps0 (W0 m ρ c) (Proc.devRef .tc main_v6) = _
  dsimp only [hostOps0]
  after_results
  unfold val_main_v6 val_main_v5 val_main_v4 val_main_v0
  rfl

/-- The degree test `deg > 0`, the degree the sum of ones over the edges that end at the node. -/
theorem degpos_W1 : W1 m ρ c (Proc.devRef .tc main_v12) = val_main_v12 (F := Ideal) (m ((c.tc : Thread nD τ).loc main_arg1)) := by
  show StableHlo.after hostOps0 (W0 m ρ c) (Proc.devRef .tc main_v12) = _
  dsimp only [hostOps0]
  after_results
  unfold val_main_v12 val_main_v11 val_main_cst_1 val_main_v10 val_main_v9 val_main_v8 val_main_cst_0 val_main_v7 val_main_cst val_main_v6 val_main_v5 val_main_v4 val_main_v0
  rfl

/-- The inverse square root of `max deg 1`. -/
theorem rsqrt_W1 : W1 m ρ c (Proc.devRef .tc main_v15) = val_main_v15 (F := Ideal) (m ((c.tc : Thread nD τ).loc main_arg1)) := by
  show StableHlo.after hostOps0 (W0 m ρ c) (Proc.devRef .tc main_v15) = _
  dsimp only [hostOps0]
  after_results
  unfold val_main_v15 val_main_v14 val_main_v13 val_main_cst_2 val_main_v10 val_main_v9 val_main_v8 val_main_cst_0 val_main_v7 val_main_cst val_main_v6 val_main_v5 val_main_v4 val_main_v0
  rfl

/-- The zero the selection falls back to. -/
theorem zero_W1 : W1 m ρ c (Proc.devRef .tc main_cst_3) = val_main_cst_3 (F := Ideal) := by
  show StableHlo.after hostOps0 (W0 m ρ c) (Proc.devRef .tc main_cst_3) = _
  dsimp only [hostOps0]
  after_results
  unfold val_main_cst_3
  rfl

/-! ## After the second stretch: the selection -/

theorem src_W2 : W2 m ρ c (Proc.devRef .tc main_v3) = val_main_v3 (F := Ideal) (m ((c.tc : Thread nD τ).loc main_arg1)) :=
  (show StableHlo.after hostOps0_1 (W1 m ρ c) (Proc.devRef .tc main_v3) = W1 m ρ c (Proc.devRef .tc main_v3) by stretch_keeps).trans (src_W1 m ρ c)

theorem dst_W2 : W2 m ρ c (Proc.devRef .tc main_v6) = val_main_v6 (F := Ideal) (m ((c.tc : Thread nD τ).loc main_arg1)) :=
  (show StableHlo.after hostOps0_1 (W1 m ρ c) (Proc.devRef .tc main_v6) = W1 m ρ c (Proc.devRef .tc main_v6) by stretch_keeps).trans (dst_W1 m ρ c)

/-- The selection over ANY contents `W` of the buffers before the second stretch that hold the degree test, the inverse root
    and the zero: the stretch is read with `W` a variable, so that nothing older is opened. -/
theorem dinv_of (W : Valuation τ sig (Elt Ideal)) (x1 : (⟨Cert.ReferenceIdeal.S2x1600000, .i32⟩ : BufTy).Contents (Elt Ideal))
    (h12 : W (Proc.devRef .tc main_v12) = val_main_v12 (F := Ideal) x1)
    (h15 : W (Proc.devRef .tc main_v15) = val_main_v15 (F := Ideal) x1)
    (h0 : W (Proc.devRef .tc main_cst_3) = val_main_cst_3 (F := Ideal)) :
    StableHlo.after hostOps0_1 W (Proc.devRef .tc main_v16) = val_main_v16 (F := Ideal) x1 := by
  dsimp only [hostOps0_1]
  after_results
  simp only [TRef.ofBuf, TRef.toBuf, cast_eq]
  rw [h12, h15, h0]
  unfold val_main_v16 val_main_call0_v1 val_main_call0_v0
  rfl

/-- `dinv`: the inverse root where the degree is positive, zero elsewhere. -/
theorem dinv_W2 : W2 m ρ c (Proc.devRef .tc main_v16) = val_main_v16 (F := Ideal) (m ((c.tc : Thread nD τ).loc main_arg1)) :=
  dinv_of (W1 m ρ c) _ (degpos_W1 m ρ c) (rsqrt_W1 m ρ c) (zero_W1 m ρ c)

/-! ## After the third stretch: the weights -/

theorem src_W3 : W3 m ρ c (Proc.devRef .tc main_v3) = val_main_v3 (F := Ideal) (m ((c.tc : Thread nD τ).loc main_arg1)) :=
  (show StableHlo.after hostOps0_2 (W2 m ρ c) (Proc.devRef .tc main_v3) = W2 m ρ c (Proc.devRef .tc main_v3) by stretch_keeps).trans (src_W2 m ρ c)

theorem dst_W3 : W3 m ρ c (Proc.devRef .tc main_v6) = val_main_v6 (F := Ideal) (m ((c.tc : Thread nD τ).loc main_arg1)) :=
  (show StableHlo.after hostOps0_2 (W2 m ρ c) (Proc.devRef .tc main_v6) = W2 m ρ c (Proc.devRef .tc main_v6) by stretch_keeps).trans (dst_W2 m ρ c)

/-- The weights over ANY contents `W` of the buffers before the third stretch that hold `dinv` and the two edge lists. -/
theorem norm_of (W : Valuation τ sig (Elt Ideal)) (x1 : (⟨Cert.ReferenceIdeal.S2x1600000, .i32⟩ : BufTy).Contents (Elt Ideal))
    (h16 : W (Proc.devRef .tc main_v16) = val_main_v16 (F := Ideal) x1)
    (h3 : W (Proc.devRef .tc main_v3) = val_main_v3 (F := Ideal) x1)
    (h6 : W (Proc.devRef .tc main_v6) = val_main_v6 (F := Ideal) x1) :
    StableHlo.after hostOps0_2 W (Proc.devRef .tc main_v31) = val_main_v31 (F := Ideal) x1 := by
  dsimp only [hostOps0_2]
  after_results_simp
  rw [h16, h3, h6]
  unfold val_main_v31 val_main_v30 val_main_v29 val_main_v28 val_main_v27 val_main_v26 val_main_c_6 val_main_v25 val_main_v24 val_main_c_5 val_main_v23 val_main_v22 val_main_v21 val_main_v20 val_main_v19 val_main_c_4 val_main_v18 val_main_v17 val_main_c
  rfl

/-- `norm e = dinv (src e) * dinv (dst e)`, each index counted from the end when negative. -/
theorem norm_W3 : W3 m ρ c (Proc.devRef .tc main_v31) = val_main_v31 (F := Ideal) (m ((c.tc : Thread nD τ).loc main_arg1)) :=
  norm_of (W2 m ρ c) _ (dinv_W2 m ρ c) (src_W2 m ρ c) (dst_W2 m ρ c)

end Cert.KernelIdeal.Prefix

end
-- ==== Proof.Region0.lean ====
/- Region 0 tiles the first layer's product `x · W₀` over twenty blocks of 5000 rows: block `t` of the result is the
   product of rows `5000 t … 5000 t + 4999` of `x` with the whole of `W₀`, and the twenty blocks fill the array. -/
import proofs.«158951_j8383776162491_1_alg».proof.Proof.Gen.KernelIdeal.Frame
import proofs.«158951_j8383776162491_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

namespace Matmul128

/-! ## The block product at an index -/

/-- The block product's left factor keeps the output's row. -/
theorem blockProd0_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contracted index. -/
theorem blockProd0_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right factor's row is the contracted index. -/
theorem blockProd0_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Its column is the output's column. -/
theorem blockProd0_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body computes from its two blocks: entry `(p, q)` is `∑ k, x0 (p, k) * x1 (k, q)`. Rounding the factors
    to the narrower float type is the identity on ideal numbers, and the product accumulates into zero. -/
theorem blockProd0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul, truncf, Ideal.truncf_def]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockProd0_lhs_0 _ _
    | ⟨1, _⟩ => exact (blockProd0_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockProd0_rhs_0 _ _).trans hk
    | ⟨1, _⟩ => exact blockProd0_rhs_1 _ _)
  rw [el, er]
  rfl

/-! ## The product of the whole arrays at an index -/

/-- The first layer's product at an index: entry `(r, q)` is `∑ k, x (r, k) * w (k, q)`. -/
theorem product128_apply (x : (⟨Cert.ReferenceIdeal.S100000x128, .f32⟩ : BufTy).Contents (Elt Ideal)) (w : (⟨Cert.ReferenceIdeal.S128x128, .f32⟩ : BufTy).Contents (Elt Ideal))
    (r : Fin 100000) (q : Fin 128) :
    Cert.Gcn.mm128 (F := Ideal) x w (ix2 r q) = ∑ k : Fin 128, x (ix2 r k) * w (ix2 k q) := by
  show Cert.ReferenceIdeal.ReadP.val_main_v32 (F := Ideal) x w (ix2 r q) = _
  rw [Cert.ReferenceIdeal.ReadP.val_main_v32_apply]
  refine Finset.sum_congr rfl fun k _ => ?_
  have el : Cert.ReferenceIdeal.ReadP.lidx_main_v32 (ix2 r q) k = ix2 r k := funext fun a => by
    match a with
    | ⟨0, _⟩ => rfl
    | ⟨1, _⟩ => rfl
  have er : Cert.ReferenceIdeal.ReadP.ridx_main_v32 (ix2 r q) k = ix2 k q := funext fun a => by
    match a with
    | ⟨0, _⟩ => rfl
    | ⟨1, _⟩ => rfl
  rw [el, er]

/-! ## Where each window's block sits in its array -/

theorem zero_offsets0 : (![0, 0] : Fin 2 → Nat) = fun _ => 0 := funext fun a => by fin_cases a <;> rfl

/-- The printed index maps, decided over the grid: at point `t` the blocks of `x` and of the result are the `t`-th
    blocks of rows, and the block of `W₀` is the whole matrix. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of `x` at point `t` is row `5000 t + p` of `x`. -/
theorem xBlock0_emb (t : Fin cfg0.N) (p : Fin 5000) (k : Fin 128) (h : 5000 * t.val + p.val < 100000) :
    ((cfg0.win 0).blk t).view.emb (ix2 p k) = ix2 (⟨5000 * t.val + p.val, h⟩ : Fin 100000) k := by
  obtain ⟨e00, e01, e10, e11, e20, e21⟩ := block_indices0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The block of `W₀` at any point is the whole matrix. -/
theorem wBlock0_emb (t : Fin cfg0.N) (k : Fin 128) (q : Fin 128) :
    ((cfg0.win 1).blk t).view.emb (ix2 k q) = ix2 k q := by
  obtain ⟨e00, e01, e10, e11, e20, e21⟩ := block_indices0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Row `p` of the result's block at point `t` is row `5000 t + p` of the result. -/
theorem outBlock0_emb (t : Fin cfg0.N) (p : Fin 5000) (q : Fin 128) (h : 5000 * t.val + p.val < 100000) :
    ((cfg0.win 2).blk t).view.emb (ix2 p q) = ix2 (⟨5000 * t.val + p.val, h⟩ : Fin 100000) q := by
  obtain ⟨e00, e01, e10, e11, e20, e21⟩ := block_indices0 t
  funext a; apply Fin.ext
  match a with
  | ⟨0, _⟩ => show win0_2.index t (0 : Fin 2) * 5000 + 1 * p.val = 5000 * t.val + p.val; omega
  | ⟨1, _⟩ => show win0_2.index t (1 : Fin 2) * 128 + 1 * q.val = q.val; omega

end Matmul128

/- The TensorCore's buffer contents when the region is entered: any contents, the region's value is a function of them. -/
variable (V : (c : Dev nD) → (b : Ref sig .tc) → Buf (Elt Ideal) ((c : Thread nD τ).loc b))

namespace Matmul128

/-- The block of `x` at point `t`, read off the array: its entry `(p, k)` is `x (5000 t + p, k)`. -/
theorem xBlock0_read (c : Dev nD) (t : Fin cfg0.N) (p : Fin 5000) (k : Fin 128) (h : 5000 * t.val + p.val < 100000) :
    iblk0 V c 0 t (ix2 p k) = V c main_arg0 (ix2 (⟨5000 * t.val + p.val, h⟩ : Fin 100000) k) := by
  show V c main_arg0 (((cfg0.win 0).blk t).view.emb (ix2 p k)) = _
  rw [xBlock0_emb t p k h]

/-- The block of `W₀` at point `t`, read off the array: the matrix itself. -/
theorem wBlock0_read (c : Dev nD) (t : Fin cfg0.N) (k : Fin 128) (q : Fin 128) :
    iblk0 V c 1 t (ix2 k q) = V c main_arg2 (ix2 k q) := by
  show V c main_arg2 (((cfg0.win 1).blk t).view.emb (ix2 k q)) = _
  rw [wBlock0_emb t k q]

/-- WHAT POINT `t` WRITES BACK is block `t` of the product of the whole arrays as the region finds them. -/
theorem flushed0_eq (c : Dev nD) (t : Fin cfg0.N) :
    (dat0 (F := Ideal) V c).flushed 2 t
      = ((cfg0.win 2).blk t).view.read (Elt Ideal) (Cert.Gcn.mm128 (F := Ideal) (V c main_arg0) (V c main_arg2)) := by
  show (cfg0.win 2).cut (grid0.coords t) ((dat0 (F := Ideal) V c).after 2 t) = _
  rw [after0_2]
  unfold out0_2
  rw [View.canon_unit_zero zero_offsets0]
  simp only [View.ld_unit_zero (S := S5000x128) zero_offsets0, View.ld_unit_zero (S := S128x128) zero_offsets0]
  have ht : t.val < 20 := lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp : 5000 * t.val + p.val < 100000 := by have := p.isLt; omega
  show k0_pay1 (F := Ideal) (iblk0 V c 0 t) (iblk0 V c 1 t) (ix2 p q)
    = Cert.Gcn.mm128 (F := Ideal) (V c main_arg0) (V c main_arg2) (((cfg0.win 2).blk t).view.emb (ix2 p q))
  rw [outBlock0_emb t p q hp]
  refine (blockProd0_apply (iblk0 V c 0 t) (iblk0 V c 1 t) p q).trans ?_
  refine ((product128_apply (V c main_arg0) (V c main_arg2) ⟨5000 * t.val + p.val, hp⟩ q).trans ?_).symm
  refine Finset.sum_congr rfl fun k _ => ?_
  rw [xBlock0_read V c t p k hp, wBlock0_read V c t k q]

/-- An index of the result is in point `t`'s block iff each coordinate is in the block's range on its axis. -/
theorem mem_outBlock0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks fill the result: row `r` is in the block of point `r / 5000`. -/
theorem blocks_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e00, e01, e10, e11, e20, e21⟩ := block_indices0 t
  refine ⟨t, flush0_2 t, ?_⟩
  rw [mem_outBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Matmul128

theorem region0 (c : Dev nD) :
    (dat0 (F := Ideal) V c).arrAt 2 cfg0.N = Cert.Gcn.mm128 (F := Ideal) (V c main_arg0) (V c main_arg2) := by
  exact (dat0 (F := Ideal) V c).arrAt_eq_of_cover 2 _ (fun t _ => Matmul128.flushed0_eq V c t) Matmul128.blocks_cover0

end Cert.KernelIdeal.RegionValue

end
-- ==== Proof.Region1.lean ====
/- Region 1 adds the first bias, a one-row matrix, to every row of the aggregated array and takes the maximum with
   zero, twenty blocks of 5000 rows at a time. -/
import proofs.«158951_j8383776162491_1_alg».proof.Proof.Gen.KernelIdeal.Frame
import proofs.«158951_j8383776162491_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/- The TensorCore's buffer contents when the region is entered: any contents, the region's value is a function of them. -/
variable (V : (c : Dev nD) → (b : Ref sig .tc) → Buf (Elt Ideal) ((c : Thread nD τ).loc b))

namespace BiasRelu128

/-! ## One entry of a block, and one entry of the stage -/

/-- The whole-block accesses start at the origin. -/
theorem origin2 : (![0, 0] : Fin 2 → Nat) = fun _ => 0 := funext fun a => by fin_cases a <;> rfl

/-- Entry (p, q) of what the body computes from a block of 5000 rows and the bias row: the block's entry plus the
    bias at column q, or zero if that is negative. -/
theorem bias_relu_block_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  refine congrArg₂ max (congrArg₂ (· + ·) ?_ ?_) rfl
  · exact congrFun (shapeCast_self x0 shapeCasts_S5000x128_S5000x128) (ix2 p q)
  · refine (broadcastTo_apply _ broadcasts_S1x128_S5000x128 (ix2 p q) (ix2 (0 : Fin 1) q) ?_).trans
      (congrFun (shapeCast_self x1 shapeCasts_S1x128_S1x128) (ix2 (0 : Fin 1) q))
    intro a
    match a with
    | ⟨0, _⟩ => show (0 : Nat) = if (1 : Nat) = 1 then 0 else p.val; rw [if_pos rfl]
    | ⟨1, _⟩ => show q.val = if (128 : Nat) = 1 then 0 else q.val; rw [if_neg (by decide)]

/-- Entry (r, q) of the stage: the array's entry plus the bias at column q, or zero if that is negative. -/
theorem br128_apply (a : (⟨Cert.ReferenceIdeal.S100000x128, .f32⟩ : BufTy).Contents (Elt Ideal))
    (b : (⟨Cert.ReferenceIdeal.S1x128, .f32⟩ : BufTy).Contents (Elt Ideal)) (r : Fin 100000) (q : Fin 128) :
    Cert.Gcn.br128 (F := Ideal) a b (ix2 r q) = max (a (ix2 r q) + b (ix2 (0 : Fin 1) q)) (Ideal.ofBits .f32 0x00000000#32) := by
  unfold Cert.Gcn.br128
  refine congrArg₂ max (congrArg₂ (· + ·) rfl ?_) ?_
  · exact broadcastInDim_apply _ Cert.ReferenceIdeal.Facts₀.bcast_S1x128_S100000x128_0_1 b (ix2 r q) (ix2 (0 : Fin 1) q) (fun a => match a with
      | ⟨0, _⟩ => by show (0 : Nat) = if (1 : Nat) = 1 then 0 else r.val; rw [if_pos rfl]
      | ⟨1, _⟩ => by show q.val = if (128 : Nat) = 1 then 0 else q.val; rw [if_neg (by decide)])
  · exact broadcastInDim_apply _ Cert.ReferenceIdeal.Facts₀.bcast_S_S100000x128 (constant (F := Ideal) Cert.ReferenceIdeal.S_ .f32 0x00000000#32) (ix2 r q) ix0 (fun a => a.elim0)

/-- A block of the body's result is the stage read where the block sits: if the block of rows `x0` is the array `a`
    read along `e`, a map of block indices to array indices that keeps the column, and `x1` is the bias row `b`,
    then entry `y` of the body's result is entry `e y` of the stage. -/
theorem bias_relu_block_eq (a : (⟨Cert.ReferenceIdeal.S100000x128, .f32⟩ : BufTy).Contents (Elt Ideal))
    (b : (⟨Cert.ReferenceIdeal.S1x128, .f32⟩ : BufTy).Contents (Elt Ideal))
    (x0 : Vec Ideal S5000x128 .f32) (x1 : Vec Ideal S1x128 .f32) (e : S5000x128.Idx → S100000x128.Idx)
    (h0 : ∀ y, x0 y = a (e y)) (h1 : ∀ y, x1 y = b y) (he : ∀ y, (e y 1).val = (y 1).val) (y : S5000x128.Idx) :
    k1_pay1 (F := Ideal) x0 x1 y = Cert.Gcn.br128 (F := Ideal) a b (e y) := by
  obtain ⟨p, q, rfl⟩ : ∃ (p : Fin 5000) (q : Fin 128), y = ix2 p q := ⟨y 0, y 1, eq_ix2 y⟩
  obtain ⟨r, q', hrq⟩ : ∃ (r : Fin 100000) (q' : Fin 128), e (ix2 p q) = ix2 r q' := ⟨_, _, eq_ix2 _⟩
  have hq : q' = q := Fin.ext (by have h := he (ix2 p q); rw [hrq] at h; exact h)
  subst hq
  rw [hrq, bias_relu_block_apply, br128_apply, h0, hrq, h1]

/-! ## The blocks, read off the arrays -/

/-- The printed index maps over the grid: the rows' window moves with the output's, whose block index at point `t` is
    `(t, 0)`; the bias row's window stays at `(0, 0)`. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The rows' block at point `t` is the array read where the output's block at `t` sits. -/
theorem rows_block_read (c : Dev nD) (t : Fin cfg1.N) (y : S5000x128.Idx) :
    iblk1 (F := Ideal) V c 0 t y = V c main_v45 (((cfg1.win 2).blk t).view.emb y) := by
  show V c main_v45 (((cfg1.win 0).blk t).view.emb y) = V c main_v45 (((cfg1.win 2).blk t).view.emb y)
  obtain ⟨e0, e1, e2, e3, e4, e5⟩ := index_facts t
  refine congrArg (V c main_v45) ?_
  funext a; apply Fin.ext
  match a with
  | ⟨0, _⟩ => show win1_0.index t (0 : Fin 2) * 5000 + 1 * (y 0).val = win1_2.index t (0 : Fin 2) * 5000 + 1 * (y 0).val; omega
  | ⟨1, _⟩ => show win1_0.index t (1 : Fin 2) * 128 + 1 * (y 1).val = win1_2.index t (1 : Fin 2) * 128 + 1 * (y 1).val; omega

/-- The bias row's block at every point is the whole one-row matrix. -/
theorem bias_block_read (c : Dev nD) (t : Fin cfg1.N) (y : S1x128.Idx) :
    iblk1 (F := Ideal) V c 1 t y = V c main_v46 y := by
  show V c main_v46 (((cfg1.win 1).blk t).view.emb y) = V c main_v46 y
  obtain ⟨e0, e1, e2, e3, e4, e5⟩ := index_facts t
  refine congrArg (V c main_v46) ?_
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- An entry of the output's block at point `t` sits in the array's column of the same number. -/
theorem out_block_col (t : Fin cfg1.N) (y : S5000x128.Idx) :
    ((((cfg1.win 2).blk t).view.emb y) 1).val = (y 1).val := by
  obtain ⟨e0, e1, e2, e3, e4, e5⟩ := index_facts t
  show win1_2.index t (1 : Fin 2) * 128 + 1 * (y 1).val = (y 1).val
  omega

/-! ## From the blocks to the array -/

/-- What point `t` writes back is block `t` of the stage of the two arrays as the region finds them. -/
theorem flushed_eq (c : Dev nD) (t : Fin cfg1.N) :
    (dat1 (F := Ideal) V c).flushed 2 t
      = ((cfg1.win 2).blk t).view.read (Elt Ideal) (Cert.Gcn.br128 (F := Ideal) (V c main_v45) (V c main_v46)) := by
  show (cfg1.win 2).cut (grid1.coords t) ((dat1 (F := Ideal) V c).after 2 t) = _
  rw [after1_2]
  unfold out1_2
  rw [View.canon_unit_zero origin2]
  simp only [View.ld_unit_zero (S := S5000x128) origin2, View.ld_unit_zero (S := S1x128) origin2]
  funext y
  show k1_pay1 (F := Ideal) (iblk1 (F := Ideal) V c 0 t) (iblk1 (F := Ideal) V c 1 t) y
    = Cert.Gcn.br128 (F := Ideal) (V c main_v45) (V c main_v46) (((cfg1.win 2).blk t).view.emb y)
  exact bias_relu_block_eq (V c main_v45) (V c main_v46) (iblk1 (F := Ideal) V c 0 t) (iblk1 (F := Ideal) V c 1 t)
    (((cfg1.win 2).blk t).view.emb) (rows_block_read V c t) (bias_block_read V c t) (out_block_col t) y

/-- An index of the array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` of the array is in the block of point `r / 5000`, and every point writes its block back. -/
theorem blocks_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := index_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_block]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

end BiasRelu128

theorem region1 (c : Dev nD) :
    (dat1 (F := Ideal) V c).arrAt 2 cfg1.N = Cert.Gcn.br128 (F := Ideal) (V c main_v45) (V c main_v46) := by
  exact (dat1 (F := Ideal) V c).arrAt_eq_of_cover 2 _ (fun t _ => BiasRelu128.flushed_eq V c t) BiasRelu128.blocks_cover

end Cert.KernelIdeal.RegionValue

end
-- ==== Proof.Region2.lean ====
/- Region 2 tiles the second layer's product `h₁ · W₁` over twenty blocks of 5000 rows. -/
import proofs.«158951_j8383776162491_1_alg».proof.Proof.Gen.KernelIdeal.Frame
import proofs.«158951_j8383776162491_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

namespace Matmul64

/-! ## The block product at an index -/

/-- The block product's left factor keeps the output's row. -/
theorem blockProd2_lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Its column is the contracted index. -/
theorem blockProd2_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right factor's row is the contracted index. -/
theorem blockProd2_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- Its column is the output's column. -/
theorem blockProd2_rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body computes from its two blocks: entry `(p, q)` is `∑ k, x0 (p, k) * x1 (k, q)`. Recasting the left block
    to its own shape changes nothing, rounding the factors to the narrower float type is the identity on ideal numbers,
    and the product accumulates into zero. -/
theorem blockProd2_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  rw [shapeCast_self]
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact blockProd2_lhs_0 _ _
    | ⟨1, _⟩ => exact (blockProd2_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (blockProd2_rhs_0 _ _).trans hk
    | ⟨1, _⟩ => exact blockProd2_rhs_1 _ _)
  rw [el, er]
  rfl

/-! ## The product of the whole arrays at an index -/

/-- The second layer's product at an index: entry `(r, q)` is `∑ k, x (r, k) * w (k, q)`. -/
theorem product64_apply (x : (⟨Cert.ReferenceIdeal.S100000x128, .f32⟩ : BufTy).Contents (Elt Ideal)) (w : (⟨Cert.ReferenceIdeal.S128x64, .f32⟩ : BufTy).Contents (Elt Ideal))
    (r : Fin 100000) (q : Fin 64) :
    Cert.Gcn.mm64 (F := Ideal) x w (ix2 r q) = ∑ k : Fin 128, x (ix2 r k) * w (ix2 k q) := by
  unfold Cert.Gcn.mm64
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r q) ((contrEquiv1 Cert.ReferenceIdeal.dot_S100000x128_S128x64_S100000x64_1_0_0_1_n_n 128 rfl rfl).symm k) = ix2 r k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : Cert.ReferenceIdeal.dot_S100000x128_S128x64_S100000x64_1_0_0_1_n_n.rhsIdx (ix2 r q) ((contrEquiv1 Cert.ReferenceIdeal.dot_S100000x128_S128x64_S100000x64_1_0_0_1_n_n 128 rfl rfl).symm k) = ix2 k q := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-! ## Where each window's block sits in its array -/

theorem zero_offsets2 : (![0, 0] : Fin 2 → Nat) = fun _ => 0 := funext fun a => by fin_cases a <;> rfl

/-- The printed index maps, decided over the grid: at point `t` the blocks of `h₁` and of the result are the `t`-th
    blocks of rows, and the block of `W₁` is the whole matrix. -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the block of `h₁` at point `t` is row `5000 t + p` of `h₁`. -/
theorem hBlock2_emb (t : Fin cfg2.N) (p : Fin 5000) (k : Fin 128) (h : 5000 * t.val + p.val < 100000) :
    ((cfg2.win 0).blk t).view.emb (ix2 p k) = ix2 (⟨5000 * t.val + p.val, h⟩ : Fin 100000) k := by
  obtain ⟨e00, e01, e10, e11, e20, e21⟩ := block_indices2 t
  funext a; apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The block of `W₁` at any point is the whole matrix. -/
theorem wBlock2_emb (t : Fin cfg2.N) (k : Fin 128) (q : Fin 64) :
    ((cfg2.win 1).blk t).view.emb (ix2 k q) = ix2 k q := by
  obtain ⟨e00, e01, e10, e11, e20, e21⟩ := block_indices2 t
  funext a; apply Fin.ext
  match a with
  | ⟨0, _⟩ => show win2_1.index t (0 : Fin 2) * 128 + 1 * k.val = k.val; omega
  | ⟨1, _⟩ => show win2_1.index t (1 : Fin 2) * 64 + 1 * q.val = q.val; omega

/-- Row `p` of the result's block at point `t` is row `5000 t + p` of the result. -/
theorem outBlock2_emb (t : Fin cfg2.N) (p : Fin 5000) (q : Fin 64) (h : 5000 * t.val + p.val < 100000) :
    ((cfg2.win 2).blk t).view.emb (ix2 p q) = ix2 (⟨5000 * t.val + p.val, h⟩ : Fin 100000) q := by
  obtain ⟨e00, e01, e10, e11, e20, e21⟩ := block_indices2 t
  funext a; apply Fin.ext
  match a with
  | ⟨0, _⟩ => show win2_2.index t (0 : Fin 2) * 5000 + 1 * p.val = 5000 * t.val + p.val; omega
  | ⟨1, _⟩ => show win2_2.index t (1 : Fin 2) * 64 + 1 * q.val = q.val; omega

end Matmul64

/- The TensorCore's buffer contents when the region is entered: any contents, the region's value is a function of them. -/
variable (V : (c : Dev nD) → (b : Ref sig .tc) → Buf (Elt Ideal) ((c : Thread nD τ).loc b))

namespace Matmul64

/-- The block of `h₁` at point `t`, read off the array: its entry `(p, k)` is `h₁ (5000 t + p, k)`. -/
theorem hBlock2_read (c : Dev nD) (t : Fin cfg2.N) (p : Fin 5000) (k : Fin 128) (h : 5000 * t.val + p.val < 100000) :
    iblk2 V c 0 t (ix2 p k) = V c main_v47 (ix2 (⟨5000 * t.val + p.val, h⟩ : Fin 100000) k) := by
  show V c main_v47 (((cfg2.win 0).blk t).view.emb (ix2 p k)) = _
  rw [hBlock2_emb t p k h]

/-- The block of `W₁` at point `t`, read off the array: the matrix itself. -/
theorem wBlock2_read (c : Dev nD) (t : Fin cfg2.N) (k : Fin 128) (q : Fin 64) :
    iblk2 V c 1 t (ix2 k q) = V c main_arg4 (ix2 k q) := by
  show V c main_arg4 (((cfg2.win 1).blk t).view.emb (ix2 k q)) = _
  rw [wBlock2_emb t k q]

/-- WHAT POINT `t` WRITES BACK is block `t` of the product of the whole arrays as the region finds them. -/
theorem flushed2_eq (c : Dev nD) (t : Fin cfg2.N) :
    (dat2 (F := Ideal) V c).flushed 2 t
      = ((cfg2.win 2).blk t).view.read (Elt Ideal) (Cert.Gcn.mm64 (F := Ideal) (V c main_v47) (V c main_arg4)) := by
  show (cfg2.win 2).cut (grid2.coords t) ((dat2 (F := Ideal) V c).after 2 t) = _
  rw [after2_2]
  unfold out2_2
  rw [View.canon_unit_zero zero_offsets2]
  simp only [View.ld_unit_zero (S := S5000x128) zero_offsets2, View.ld_unit_zero (S := S128x64) zero_offsets2]
  have ht : t.val < 20 := lt_of_lt_of_eq t.isLt N_2
  refine funext fun (j : S5000x64.Idx) => ?_
  obtain ⟨p, q, rfl⟩ : ∃ (p : Fin 5000) (q : Fin 64), j = ix2 p q := ⟨j 0, j 1, eq_ix2 j⟩
  have hp : 5000 * t.val + p.val < 100000 := by have := p.isLt; omega
  show k2_pay1 (F := Ideal) (iblk2 V c 0 t) (iblk2 V c 1 t) (ix2 p q)
    = Cert.Gcn.mm64 (F := Ideal) (V c main_v47) (V c main_arg4) (((cfg2.win 2).blk t).view.emb (ix2 p q))
  rw [outBlock2_emb t p q hp]
  refine (blockProd2_apply (iblk2 V c 0 t) (iblk2 V c 1 t) p q).trans ?_
  refine ((product64_apply (V c main_v47) (V c main_arg4) ⟨5000 * t.val + p.val, hp⟩ q).trans ?_).symm
  refine Finset.sum_congr rfl fun k _ => ?_
  rw [hBlock2_read V c t p k hp, wBlock2_read V c t k q]

/-- An index of the result is in point `t`'s block iff each coordinate is in the block's range on its axis. -/
theorem mem_outBlock2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The twenty blocks fill the result: row `r` is in the block of point `r / 5000`. -/
theorem blocks_cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e00, e01, e10, e11, e20, e21⟩ := block_indices2 t
  refine ⟨t, flush2_2 t, ?_⟩
  rw [mem_outBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

end Matmul64

theorem region2 (c : Dev nD) :
    (dat2 (F := Ideal) V c).arrAt 2 cfg2.N = Cert.Gcn.mm64 (F := Ideal) (V c main_v47) (V c main_arg4) := by
  exact (dat2 (F := Ideal) V c).arrAt_eq_of_cover 2 _ (fun t _ => Matmul64.flushed2_eq V c t) Matmul64.blocks_cover2

end Cert.KernelIdeal.RegionValue

end
-- ==== Proof.Region3.lean ====
/- Region 3 adds the second bias, a one-row matrix, to every row of the aggregated array and takes the maximum with
   zero, twenty blocks of 5000 rows at a time. -/
import proofs.«158951_j8383776162491_1_alg».proof.Proof.Gen.KernelIdeal.Frame
import proofs.«158951_j8383776162491_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

/- The TensorCore's buffer contents when the region is entered: any contents, the region's value is a function of them. -/
variable (V : (c : Dev nD) → (b : Ref sig .tc) → Buf (Elt Ideal) ((c : Thread nD τ).loc b))

namespace BiasRelu64

/-! ## One entry of a block, and one entry of the stage -/

/-- The whole-block accesses start at the origin. -/
theorem origin2 : (![0, 0] : Fin 2 → Nat) = fun _ => 0 := funext fun a => by fin_cases a <;> rfl

/-- Entry (p, q) of what the body computes from a block of 5000 rows and the bias row: the block's entry plus the
    bias at column q, or zero if that is negative. -/
theorem bias_relu_block_apply (x0 : Vec Ideal S5000x64 .f32) (x1 : Vec Ideal S1x64 .f32) (p : Fin 5000) (q : Fin 64) :
    k3_pay1 (F := Ideal) x0 x1 (ix2 p q) = max (x0 (ix2 p q) + x1 (ix2 (0 : Fin 1) q)) (Ideal.ofBits .f32 0x00000000#32) := by
  unfold k3_pay1
  refine congrArg₂ max (congrArg₂ (· + ·) ?_ ?_) rfl
  · exact congrFun (shapeCast_self x0 shapeCasts_S5000x64_S5000x64) (ix2 p q)
  · refine (broadcastTo_apply _ broadcasts_S1x64_S5000x64 (ix2 p q) (ix2 (0 : Fin 1) q) ?_).trans
      (congrFun (shapeCast_self x1 shapeCasts_S1x64_S1x64) (ix2 (0 : Fin 1) q))
    intro a
    match a with
    | ⟨0, _⟩ => show (0 : Nat) = if (1 : Nat) = 1 then 0 else p.val; rw [if_pos rfl]
    | ⟨1, _⟩ => show q.val = if (64 : Nat) = 1 then 0 else q.val; rw [if_neg (by decide)]

/-- Entry (r, q) of the stage: the array's entry plus the bias at column q, or zero if that is negative. -/
theorem br64_apply (a : (⟨Cert.ReferenceIdeal.S100000x64, .f32⟩ : BufTy).Contents (Elt Ideal))
    (b : (⟨Cert.ReferenceIdeal.S1x64, .f32⟩ : BufTy).Contents (Elt Ideal)) (r : Fin 100000) (q : Fin 64) :
    Cert.Gcn.br64 (F := Ideal) a b (ix2 r q) = max (a (ix2 r q) + b (ix2 (0 : Fin 1) q)) (Ideal.ofBits .f32 0x00000000#32) := by
  unfold Cert.Gcn.br64
  refine congrArg₂ max (congrArg₂ (· + ·) rfl ?_) ?_
  · exact broadcastInDim_apply _ Cert.ReferenceIdeal.Facts₀.bcast_S1x64_S100000x64_0_1 b (ix2 r q) (ix2 (0 : Fin 1) q) (fun a => match a with
      | ⟨0, _⟩ => by show (0 : Nat) = if (1 : Nat) = 1 then 0 else r.val; rw [if_pos rfl]
      | ⟨1, _⟩ => by show q.val = if (64 : Nat) = 1 then 0 else q.val; rw [if_neg (by decide)])
  · exact broadcastInDim_apply _ Cert.ReferenceIdeal.Facts₀.bcast_S_S100000x64 (constant (F := Ideal) Cert.ReferenceIdeal.S_ .f32 0x00000000#32) (ix2 r q) ix0 (fun a => a.elim0)

/-- A block of the body's result is the stage read where the block sits: if the block of rows `x0` is the array `a`
    read along `e`, a map of block indices to array indices that keeps the column, and `x1` is the bias row `b`,
    then entry `y` of the body's result is entry `e y` of the stage. -/
theorem bias_relu_block_eq (a : (⟨Cert.ReferenceIdeal.S100000x64, .f32⟩ : BufTy).Contents (Elt Ideal))
    (b : (⟨Cert.ReferenceIdeal.S1x64, .f32⟩ : BufTy).Contents (Elt Ideal))
    (x0 : Vec Ideal S5000x64 .f32) (x1 : Vec Ideal S1x64 .f32) (e : S5000x64.Idx → S100000x64.Idx)
    (h0 : ∀ y, x0 y = a (e y)) (h1 : ∀ y, x1 y = b y) (he : ∀ y, (e y 1).val = (y 1).val) (y : S5000x64.Idx) :
    k3_pay1 (F := Ideal) x0 x1 y = Cert.Gcn.br64 (F := Ideal) a b (e y) := by
  obtain ⟨p, q, rfl⟩ : ∃ (p : Fin 5000) (q : Fin 64), y = ix2 p q := ⟨y 0, y 1, eq_ix2 y⟩
  obtain ⟨r, q', hrq⟩ : ∃ (r : Fin 100000) (q' : Fin 64), e (ix2 p q) = ix2 r q' := ⟨_, _, eq_ix2 _⟩
  have hq : q' = q := Fin.ext (by have h := he (ix2 p q); rw [hrq] at h; exact h)
  subst hq
  rw [hrq, bias_relu_block_apply, br64_apply, h0, hrq, h1]

/-! ## The blocks, read off the arrays -/

/-- The printed index maps over the grid: the rows' window moves with the output's, whose block index at point `t` is
    `(t, 0)`; the bias row's window stays at `(0, 0)`. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The rows' block at point `t` is the array read where the output's block at `t` sits. -/
theorem rows_block_read (c : Dev nD) (t : Fin cfg3.N) (y : S5000x64.Idx) :
    iblk3 (F := Ideal) V c 0 t y = V c main_v61 (((cfg3.win 2).blk t).view.emb y) := by
  show V c main_v61 (((cfg3.win 0).blk t).view.emb y) = V c main_v61 (((cfg3.win 2).blk t).view.emb y)
  obtain ⟨e0, e1, e2, e3, e4, e5⟩ := index_facts t
  refine congrArg (V c main_v61) ?_
  funext a; apply Fin.ext
  match a with
  | ⟨0, _⟩ => show win3_0.index t (0 : Fin 2) * 5000 + 1 * (y 0).val = win3_2.index t (0 : Fin 2) * 5000 + 1 * (y 0).val; omega
  | ⟨1, _⟩ => show win3_0.index t (1 : Fin 2) * 64 + 1 * (y 1).val = win3_2.index t (1 : Fin 2) * 64 + 1 * (y 1).val; omega

/-- The bias row's block at every point is the whole one-row matrix. -/
theorem bias_block_read (c : Dev nD) (t : Fin cfg3.N) (y : S1x64.Idx) :
    iblk3 (F := Ideal) V c 1 t y = V c main_v62 y := by
  show V c main_v62 (((cfg3.win 1).blk t).view.emb y) = V c main_v62 y
  obtain ⟨e0, e1, e2, e3, e4, e5⟩ := index_facts t
  refine congrArg (V c main_v62) ?_
  funext a; apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- An entry of the output's block at point `t` sits in the array's column of the same number. -/
theorem out_block_col (t : Fin cfg3.N) (y : S5000x64.Idx) :
    ((((cfg3.win 2).blk t).view.emb y) 1).val = (y 1).val := by
  obtain ⟨e0, e1, e2, e3, e4, e5⟩ := index_facts t
  show win3_2.index t (1 : Fin 2) * 64 + 1 * (y 1).val = (y 1).val
  omega

/-! ## From the blocks to the array -/

/-- What point `t` writes back is block `t` of the stage of the two arrays as the region finds them. -/
theorem flushed_eq (c : Dev nD) (t : Fin cfg3.N) :
    (dat3 (F := Ideal) V c).flushed 2 t
      = ((cfg3.win 2).blk t).view.read (Elt Ideal) (Cert.Gcn.br64 (F := Ideal) (V c main_v61) (V c main_v62)) := by
  show (cfg3.win 2).cut (grid3.coords t) ((dat3 (F := Ideal) V c).after 2 t) = _
  rw [after3_2]
  unfold out3_2
  rw [View.canon_unit_zero origin2]
  simp only [View.ld_unit_zero (S := S5000x64) origin2, View.ld_unit_zero (S := S1x64) origin2]
  funext y
  show k3_pay1 (F := Ideal) (iblk3 (F := Ideal) V c 0 t) (iblk3 (F := Ideal) V c 1 t) y
    = Cert.Gcn.br64 (F := Ideal) (V c main_v61) (V c main_v62) (((cfg3.win 2).blk t).view.emb y)
  exact bias_relu_block_eq (V c main_v61) (V c main_v62) (iblk3 (F := Ideal) V c 0 t) (iblk3 (F := Ideal) V c 1 t)
    (((cfg3.win 2).blk t).view.emb) (rows_block_read V c t) (bias_block_read V c t) (out_block_col t) y

/-- An index of the array is in point `t`'s block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- Row `r` of the array is in the block of point `r / 5000`, and every point writes its block back. -/
theorem blocks_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have ht : (i 0).val / 5000 < cfg3.N := by rw [hN]; omega
  obtain ⟨e0, e1, e2, e3, e4, e5⟩ := index_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_block]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 64 ≤ (i 1).val ∧ (i 1).val < win3_2.index ⟨(i 0).val / 5000, ht⟩ (1 : Fin 2) * 64 + 64; omega

end BiasRelu64

theorem region3 (c : Dev nD) :
    (dat3 (F := Ideal) V c).arrAt 2 cfg3.N = Cert.Gcn.br64 (F := Ideal) (V c main_v61) (V c main_v62) := by
  exact (dat3 (F := Ideal) V c).arrAt_eq_of_cover 2 _ (fun t _ => BiasRelu64.flushed_eq V c t) BiasRelu64.blocks_cover

end Cert.KernelIdeal.RegionValue

end
-- ==== Proof.Region4.lean ====
/- Region 4 is the head, twenty blocks of 5000 nodes at a time: the score `z = h₂ · Wl + bl` of each node, stored as the
   row `[0 - z, z]`; on the extended reals `0 - z` is `-z`. -/
import proofs.«158951_j8383776162491_1_alg».proof.Proof.Gen.KernelIdeal.Frame
import proofs.«158951_j8383776162491_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

namespace Head

open Idealize.ShloMosaic.ValueIdx

/-! ## A block's product with the weight column, read at a row

The contraction runs over the block's 64 columns and the weight's 64 rows: the left operand is read at (row, k), the
right at (k, column), on each of the four axes separately. -/

theorem blockDot_lhs_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem blockDot_lhs_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem blockDot_rhs_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem blockDot_rhs_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Into the zero accumulator the block's product at row `p` is the sum over `k` of the row's entry `k` times the
    weight's entry `k`. -/
theorem blockDot_apply (a : FVec Ideal S5000x64 .bf16) (b : FVec Ideal S64x1 .bf16) (p : Fin 5000) :
    matmul dot_S5000x64_S64x1_S5000x1_1_0_0_1_n_n none a b (constant (F := Ideal) S5000x1 .f32 0x00000000#32) (ix2 p (0 : Fin 1))
      = ∑ k : Fin 64, a (ix2 p k) * b (ix2 k (0 : Fin 1)) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p (0 : Fin 1)) ((ValueIdx.contrEquiv1 dot_S5000x64_S64x1_S5000x1_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : dot_S5000x64_S64x1_S5000x1_1_0_0_1_n_n.rhsIdx (ix2 p (0 : Fin 1)) ((ValueIdx.contrEquiv1 dot_S5000x64_S64x1_S5000x1_1_0_0_1_n_n 64 rfl rfl).symm k) = ix2 k (0 : Fin 1) := funext fun a => Fin.ext (by
    match a with
    | ⟨0, _⟩ => exact (blockDot_rhs_0 _ _).trans hk
    | ⟨1, _⟩ => exact blockDot_rhs_1 _ _)
  rw [el, er]

/-! ## The body's payload at an index -/

/-- The score of row `p` of a block: the row times the weight column, plus the bias. -/
def blockScore (x0 : FVec Ideal S5000x64 .f32) (x1 : FVec Ideal S64x1 .f32) (x2 : FVec Ideal S1x1 .f32) (p : Fin 5000) : EReal :=
  (∑ k : Fin 64, x0 (ix2 p k) * x1 (ix2 k (0 : Fin 1))) + x2 (ix2 (0 : Fin 1) (0 : Fin 1))

/-- The column of scores the body computes before it lays `0 - z` beside `z`. -/
def scoreColumn (x0 : FVec Ideal S5000x64 .f32) (x1 : FVec Ideal S64x1 .f32) (x2 : FVec Ideal S1x1 .f32) : FVec Ideal S5000x1 .f32 :=
  addf (matmul dot_S5000x64_S64x1_S5000x1_1_0_0_1_n_n none
      (truncf .bf16 (shapeCast S5000x64 x0 shapeCasts_S5000x64_S5000x64) bitsLt_bf16_f32) (truncf .bf16 x1 bitsLt_bf16_f32)
      (constant (F := Ideal) S5000x1 .f32 0x00000000#32))
    (broadcastTo S5000x1 (shapeCast S1x1 x2 shapeCasts_S1x1_S1x1) broadcasts_S1x1_S5000x1)

/-- The payload is the two-column concatenation of `0 - z` and `z`. -/
theorem pay_eq (x0 : FVec Ideal S5000x64 .f32) (x1 : FVec Ideal S64x1 .f32) (x2 : FVec Ideal S1x1 .f32) :
    k4_pay1 (F := Ideal) x0 x1 x2 = concatenate S5000x2 1
      [⟨S5000x1, subf (broadcast S5000x1 (Scalar.ofBits (F := Ideal) .f32 0x00000000#32)) (scoreColumn x0 x1 x2)⟩, ⟨S5000x1, scoreColumn x0 x1 x2⟩]
      concatenates_S5000x1_S5000x1_S5000x2_d1 := rfl

/-- The column of scores at row `p`. -/
theorem scoreColumn_apply (x0 : FVec Ideal S5000x64 .f32) (x1 : FVec Ideal S64x1 .f32) (x2 : FVec Ideal S1x1 .f32) (p : Fin 5000) :
    scoreColumn x0 x1 x2 (ix2 p (0 : Fin 1)) = blockScore x0 x1 x2 p := by
  unfold scoreColumn blockScore
  rw [addf_apply, blockDot_apply, shapeCast_self, shapeCast_self,
    broadcastTo_apply _ broadcasts_S1x1_S5000x1 (ix2 p (0 : Fin 1)) (ix2 (0 : Fin 1) (0 : Fin 1)) (fun a => by
      match a with
      | ⟨0, _⟩ => rfl
      | ⟨1, _⟩ => rfl)]
  rfl

/-! ## The stage at an index -/

/-- The whole array's product with the weight column, at row `i`: the same sum over the 64 columns. -/
theorem headDot_apply (h : FVec Ideal Cert.ReferenceIdeal.S100000x64 .f32) (wl : FVec Ideal Cert.ReferenceIdeal.S64x1 .f32) (i : Fin 100000) :
    Host.dotGeneral Cert.ReferenceIdeal.dot_S100000x64_S64x1_S100000x1_1_0_0_1_n_n none h wl (ix2 i (0 : Fin 1))
      = ∑ k : Fin 64, h (ix2 i k) * wl (ix2 k (0 : Fin 1)) := by
  simp only [Host.dotGeneral]
  rw [Ideal.dotGeneral_apply, ← Equiv.sum_comp (ValueIdx.contrEquiv1 Cert.ReferenceIdeal.dot_S100000x64_S64x1_S100000x1_1_0_0_1_n_n 64 rfl rfl).symm]
  refine Finset.sum_congr rfl fun k _ => ?_
  have hk := ValueIdx.contrEquiv1_symm_val Cert.ReferenceIdeal.dot_S100000x64_S64x1_S100000x1_1_0_0_1_n_n 64 rfl rfl k
  have el : Cert.ReferenceIdeal.dot_S100000x64_S64x1_S100000x1_1_0_0_1_n_n.lhsIdx (ix2 i (0 : Fin 1)) ((ValueIdx.contrEquiv1 Cert.ReferenceIdeal.dot_S100000x64_S64x1_S100000x1_1_0_0_1_n_n 64 rfl rfl).symm k) = ix2 i k := funext fun a => Fin.ext (by
    match a with
    | ⟨0, _⟩ => exact Cert.ReferenceIdeal.ReadP.lhs_main_v68_0 _ _
    | ⟨1, _⟩ => exact (Cert.ReferenceIdeal.ReadP.lhs_main_v68_1 _ _).trans hk)
  have er : Cert.ReferenceIdeal.dot_S100000x64_S64x1_S100000x1_1_0_0_1_n_n.rhsIdx (ix2 i (0 : Fin 1)) ((ValueIdx.contrEquiv1 Cert.ReferenceIdeal.dot_S100000x64_S64x1_S100000x1_1_0_0_1_n_n 64 rfl rfl).symm k) = ix2 k (0 : Fin 1) := funext fun a => Fin.ext (by
    match a with
    | ⟨0, _⟩ => exact (Cert.ReferenceIdeal.ReadP.rhs_main_v68_0 _ _).trans hk
    | ⟨1, _⟩ => exact Cert.ReferenceIdeal.ReadP.rhs_main_v68_1 _ _)
  rw [el, er]

/-- The score of node `i`: its row of `h` times the weight column, plus the bias. -/
def nodeScore (h : FVec Ideal Cert.ReferenceIdeal.S100000x64 .f32) (wl : FVec Ideal Cert.ReferenceIdeal.S64x1 .f32) (b : FVec Ideal Cert.ReferenceIdeal.S1x1 .f32) (i : Fin 100000) : EReal :=
  (∑ k : Fin 64, h (ix2 i k) * wl (ix2 k (0 : Fin 1))) + b (ix2 (0 : Fin 1) (0 : Fin 1))

/-- The stage's score vector at node `i`. -/
theorem logits_apply (h : FVec Ideal Cert.ReferenceIdeal.S100000x64 .f32) (wl : FVec Ideal Cert.ReferenceIdeal.S64x1 .f32) (b : FVec Ideal Cert.ReferenceIdeal.S1x1 .f32) (i : Fin 100000) :
    Cert.Gcn.logits (F := Ideal) h wl b (ix1 i) = nodeScore h wl b i := by
  unfold Cert.Gcn.logits nodeScore
  refine (shapeCast_apply _ Cert.ReferenceIdeal.Gen.shapeCasts_S100000x1_S100000 (ix1 i) (ix2 i (0 : Fin 1))
    (by rewrite [Shape.rowMajor_val_two, Shape.rowMajor_val_one]; show i.val * 1 + 0 = i.val; omega)).trans ?_
  rw [addf_apply, headDot_apply,
    broadcastInDim_apply _ Cert.ReferenceIdeal.Gen.bcast_S1x1_S100000x1_0_1 b (ix2 i (0 : Fin 1)) (ix2 (0 : Fin 1) (0 : Fin 1)) (fun a => by
      match a with
      | ⟨0, _⟩ => rfl
      | ⟨1, _⟩ => rfl)]

/-- The stage's first column at node `i` is the negated score. -/
theorem head_col0 (h : FVec Ideal Cert.ReferenceIdeal.S100000x64 .f32) (wl : FVec Ideal Cert.ReferenceIdeal.S64x1 .f32) (b : FVec Ideal Cert.ReferenceIdeal.S1x1 .f32) (i : Fin 100000) :
    Cert.Gcn.head (F := Ideal) h wl b (ix2 i (0 : Fin 2)) = -(nodeScore h wl b i) := by
  unfold Cert.Gcn.head
  refine (concatenate_pair_apply_left (1 : Fin Cert.ReferenceIdeal.S100000x2.rank) _ _ Cert.ReferenceIdeal.Gen.concatenates_S100000x1_S100000x1_S100000x2_d1
    (ix2 i (0 : Fin 2)) rfl (ix2 i (0 : Fin 1)) (fun a => by
      match a with
      | ⟨0, _⟩ => rfl
      | ⟨1, _⟩ => rfl)).trans ?_
  rw [broadcastInDim_apply _ Cert.ReferenceIdeal.Gen.bcast_S100000_S100000x1_0 _ (ix2 i (0 : Fin 1)) (ix1 i) (fun a => by
      match a with
      | ⟨0, _⟩ => show i.val = if (100000 : Nat) = 1 then 0 else i.val; rw [if_neg (by decide)])]
  exact congrArg (fun z : EReal => -z) (logits_apply h wl b i)

/-- The stage's second column at node `i` is the score. -/
theorem head_col1 (h : FVec Ideal Cert.ReferenceIdeal.S100000x64 .f32) (wl : FVec Ideal Cert.ReferenceIdeal.S64x1 .f32) (b : FVec Ideal Cert.ReferenceIdeal.S1x1 .f32) (i : Fin 100000) :
    Cert.Gcn.head (F := Ideal) h wl b (ix2 i (1 : Fin 2)) = nodeScore h wl b i := by
  unfold Cert.Gcn.head
  refine (concatenate_pair_apply_right (1 : Fin Cert.ReferenceIdeal.S100000x2.rank) _ _ Cert.ReferenceIdeal.Gen.concatenates_S100000x1_S100000x1_S100000x2_d1
    (ix2 i (1 : Fin 2)) rfl rfl (ix2 i (0 : Fin 1)) (fun a ha => by
      match a with
      | ⟨0, _⟩ => rfl
      | ⟨1, _⟩ => exact absurd rfl ha) rfl).trans ?_
  rw [broadcastInDim_apply _ Cert.ReferenceIdeal.Gen.bcast_S100000_S100000x1_0 _ (ix2 i (0 : Fin 1)) (ix1 i) (fun a => by
      match a with
      | ⟨0, _⟩ => show i.val = if (100000 : Nat) = 1 then 0 else i.val; rw [if_neg (by decide)])]
  exact logits_apply h wl b i

/-! ## The payload's two columns -/

/-- The payload's first column at row `p`: zero less the score. -/
theorem pay_col0 (x0 : FVec Ideal S5000x64 .f32) (x1 : FVec Ideal S64x1 .f32) (x2 : FVec Ideal S1x1 .f32) (p : Fin 5000) :
    k4_pay1 (F := Ideal) x0 x1 x2 (ix2 p (0 : Fin 2)) = 0 - blockScore x0 x1 x2 p := by
  rw [pay_eq]
  refine (concatenate_pair_apply_left (1 : Fin S5000x2.rank) _ _ concatenates_S5000x1_S5000x1_S5000x2_d1
    (ix2 p (0 : Fin 2)) rfl (ix2 p (0 : Fin 1)) (fun a => by
      match a with
      | ⟨0, _⟩ => rfl
      | ⟨1, _⟩ => rfl)).trans ?_
  rw [subf_apply, scoreColumn_apply, broadcast_apply]
  exact congrArg (fun z : EReal => z - blockScore x0 x1 x2 p) Ideal.ofBits_zero_f32

/-- The payload's second column at row `p`: the score. -/
theorem pay_col1 (x0 : FVec Ideal S5000x64 .f32) (x1 : FVec Ideal S64x1 .f32) (x2 : FVec Ideal S1x1 .f32) (p : Fin 5000) :
    k4_pay1 (F := Ideal) x0 x1 x2 (ix2 p (1 : Fin 2)) = blockScore x0 x1 x2 p := by
  rw [pay_eq]
  refine (concatenate_pair_apply_right (1 : Fin S5000x2.rank) _ _ concatenates_S5000x1_S5000x1_S5000x2_d1
    (ix2 p (1 : Fin 2)) rfl rfl (ix2 p (0 : Fin 1)) (fun a ha => by
      match a with
      | ⟨0, _⟩ => rfl
      | ⟨1, _⟩ => exact absurd rfl ha) rfl).trans ?_
  exact scoreColumn_apply x0 x1 x2 p

/-! ## One entry of a block against one entry of the array -/

/-- When the block's row `p` is the array's row `i`, and the weight and bias blocks are the weight and the bias, the two
    scores are the same sum. -/
theorem blockScore_eq_nodeScore (x0 : FVec Ideal S5000x64 .f32) (x1 : FVec Ideal S64x1 .f32) (x2 : FVec Ideal S1x1 .f32)
    (h : FVec Ideal Cert.ReferenceIdeal.S100000x64 .f32) (wl : FVec Ideal Cert.ReferenceIdeal.S64x1 .f32) (b : FVec Ideal Cert.ReferenceIdeal.S1x1 .f32)
    (i : Fin 100000) (p : Fin 5000)
    (h0 : ∀ k : Fin 64, x0 (ix2 p k) = h (ix2 i k)) (h1 : ∀ k : Fin 64, x1 (ix2 k (0 : Fin 1)) = wl (ix2 k (0 : Fin 1)))
    (h2 : x2 (ix2 (0 : Fin 1) (0 : Fin 1)) = b (ix2 (0 : Fin 1) (0 : Fin 1))) :
    blockScore x0 x1 x2 p = nodeScore h wl b i := by
  unfold blockScore nodeScore
  rw [h2]
  exact congrArg (fun z : EReal => z + b (ix2 (0 : Fin 1) (0 : Fin 1))) (Finset.sum_congr rfl fun k _ => by rw [h0 k, h1 k])

/-- So the payload's entry (p, q) is the stage's entry (i, q): in the first column `0 - z = -z` on the extended reals. -/
theorem pay_eq_head (x0 : FVec Ideal S5000x64 .f32) (x1 : FVec Ideal S64x1 .f32) (x2 : FVec Ideal S1x1 .f32)
    (h : FVec Ideal Cert.ReferenceIdeal.S100000x64 .f32) (wl : FVec Ideal Cert.ReferenceIdeal.S64x1 .f32) (b : FVec Ideal Cert.ReferenceIdeal.S1x1 .f32)
    (i : Fin 100000) (p : Fin 5000)
    (h0 : ∀ k : Fin 64, x0 (ix2 p k) = h (ix2 i k)) (h1 : ∀ k : Fin 64, x1 (ix2 k (0 : Fin 1)) = wl (ix2 k (0 : Fin 1)))
    (h2 : x2 (ix2 (0 : Fin 1) (0 : Fin 1)) = b (ix2 (0 : Fin 1) (0 : Fin 1))) (q : Fin 2) :
    k4_pay1 (F := Ideal) x0 x1 x2 (ix2 p q) = Cert.Gcn.head (F := Ideal) h wl b (ix2 i q) := by
  have hs := blockScore_eq_nodeScore x0 x1 x2 h wl b i p h0 h1 h2
  match q with
  | ⟨0, _⟩ =>
    exact (pay_col0 x0 x1 x2 p).trans (((zero_sub _).trans (congrArg (fun z : EReal => -z) hs)).trans (head_col0 h wl b i).symm)
  | ⟨1, _⟩ =>
    exact (pay_col1 x0 x1 x2 p).trans (hs.trans (head_col1 h wl b i).symm)

/-! ## Where the blocks sit -/

theorem zeroOffsets : (![0, 0] : Fin 2 → Nat) = fun _ => 0 := funext fun a => by fin_cases a <;> rfl

/-- The printed index maps over the grid: the activations' and the output's blocks move down the rows with the point;
    the weight and the bias are one whole block each. -/
theorem blockIndices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of point `t`'s block is row `5000 t + p` of the array. -/
def blockRow (t : Fin cfg4.N) (p : Fin 5000) : Fin 100000 :=
  ⟨t.val * 5000 + p.val, by
    have h : t.val < 20 := (show t.val < grid4.N from t.isLt).trans_eq N_4
    have := p.isLt
    omega⟩

/-- Entry (p, q) of the output's block at point `t` sits at (5000 t + p, q). -/
theorem out_emb (t : Fin cfg4.N) (p : Fin 5000) (q : Fin 2) :
    ((cfg4.win 3).blk t).view.emb (ix2 p q) = ix2 (blockRow t p) q := by
  obtain ⟨-, -, -, -, -, -, e0, e1⟩ := blockIndices t
  funext a; apply Fin.ext
  match a with
  | ⟨0, _⟩ => show win4_3.index t (0 : Fin 2) * 5000 + 1 * p.val = t.val * 5000 + p.val; omega
  | ⟨1, _⟩ => show win4_3.index t (1 : Fin 2) * 2 + 1 * q.val = q.val; omega

/-- An index of the array is in point `t`'s block iff each coordinate is in the block's range on its axis. -/
theorem mem_block (t : Fin cfg4.N) (i : S100000x2.Idx) :
    i ∈ ((cfg4.win 3).blk t).view.set ↔ ∀ a : Fin 2, win4_3.index t a * S5000x2.size a ≤ (i a).val ∧ (i a).val < win4_3.index t a * S5000x2.size a + S5000x2.size a := by
  show i ∈ ((View.whole main_v65).slice (win4_3.rect t)).set ↔ _
  rw [View.set_slice_whole, Rect.mem_set_unit]
  exact Iff.rfl

/-- Every index of the array is in some point's block: row `r` in the block of point `r / 5000`. -/
theorem covered (i : S100000x2.Idx) :
    ∃ t : Fin cfg4.N, (cfg4.win 3).flush t = true ∧ i ∈ ((cfg4.win 3).blk t).view.set := by
  have hi0 : (i 0).val < 100000 := (i 0).isLt
  have hi1 : (i 1).val < 2 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨-, -, -, -, -, -, e0, e1⟩ := blockIndices t
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 2 ≤ (i 1).val ∧ (i 1).val < win4_3.index t (1 : Fin 2) * 2 + 2; omega

end Head

/- The TensorCore's buffer contents when the region is entered: any contents, the region's value is a function of them. -/
variable (V : (c : Dev nD) → (b : Ref sig .tc) → Buf (Elt Ideal) ((c : Thread nD τ).loc b))

namespace Head

open Idealize.ShloMosaic.ValueIdx

/-! ## The input blocks, read where the output's rows say -/

/-- Entry (p, k) of the activations' block at point `t` is the array's entry (5000 t + p, k). -/
theorem act_read (c : Dev nD) (t : Fin cfg4.N) (p : Fin 5000) (k : Fin 64) :
    iblk4 (F := Ideal) V c 0 t (ix2 p k) = V c main_v63 (ix2 (blockRow t p) k) := by
  obtain ⟨e0, e1, -⟩ := blockIndices t
  show V c main_v63 (((cfg4.win 0).blk t).view.emb (ix2 p k)) = V c main_v63 (ix2 (blockRow t p) k)
  refine congrArg (V c main_v63) (funext fun a => Fin.ext ?_)
  match a with
  | ⟨0, _⟩ => show win4_0.index t (0 : Fin 2) * 5000 + 1 * p.val = t.val * 5000 + p.val; omega
  | ⟨1, _⟩ => show win4_0.index t (1 : Fin 2) * 64 + 1 * k.val = k.val; omega

/-- The weight's block at every point is the weight. -/
theorem weight_read (c : Dev nD) (t : Fin cfg4.N) (k : Fin 64) :
    iblk4 (F := Ideal) V c 1 t (ix2 k (0 : Fin 1)) = V c main_arg6 (ix2 k (0 : Fin 1)) := by
  obtain ⟨-, -, e0, e1, -⟩ := blockIndices t
  show V c main_arg6 (((cfg4.win 1).blk t).view.emb (ix2 k (0 : Fin 1))) = V c main_arg6 (ix2 k (0 : Fin 1))
  refine congrArg (V c main_arg6) (funext fun a => Fin.ext ?_)
  match a with
  | ⟨0, _⟩ => show win4_1.index t (0 : Fin 2) * 64 + 1 * k.val = k.val; omega
  | ⟨1, _⟩ => show win4_1.index t (1 : Fin 2) * 1 + 1 * 0 = 0; omega

/-- The bias's block at every point is the bias. -/
theorem bias_read (c : Dev nD) (t : Fin cfg4.N) :
    iblk4 (F := Ideal) V c 2 t (ix2 (0 : Fin 1) (0 : Fin 1)) = V c main_v64 (ix2 (0 : Fin 1) (0 : Fin 1)) := by
  obtain ⟨-, -, -, -, e0, e1, -⟩ := blockIndices t
  show V c main_v64 (((cfg4.win 2).blk t).view.emb (ix2 (0 : Fin 1) (0 : Fin 1))) = V c main_v64 (ix2 (0 : Fin 1) (0 : Fin 1))
  refine congrArg (V c main_v64) (funext fun a => Fin.ext ?_)
  match a with
  | ⟨0, _⟩ => show win4_2.index t (0 : Fin 2) * 1 + 1 * 0 = 0; omega
  | ⟨1, _⟩ => show win4_2.index t (1 : Fin 2) * 1 + 1 * 0 = 0; omega

/-! ## What a point writes back, and the whole array -/

/-- What point `t` writes back is block `t` of the stage of the arrays as the region finds them. -/
theorem flushed_eq (c : Dev nD) (t : Fin cfg4.N) :
    (dat4 (F := Ideal) V c).flushed 3 t
      = ((cfg4.win 3).blk t).view.read (Elt Ideal) (Cert.Gcn.head (F := Ideal) (V c main_v63) (V c main_arg6) (V c main_v64)) := by
  show (cfg4.win 3).cut (grid4.coords t) ((dat4 (F := Ideal) V c).after 3 t) = _
  rw [after4_3]
  unfold out4_3
  rw [View.canon_unit_zero zeroOffsets]
  simp only [View.ld_unit_zero (S := S5000x64) zeroOffsets, View.ld_unit_zero (S := S64x1) zeroOffsets, View.ld_unit_zero (S := S1x1) zeroOffsets]
  funext j
  obtain ⟨p, q, rfl⟩ : ∃ (p : Fin 5000) (q : Fin 2), j = ix2 p q := ⟨j 0, j 1, eq_ix2 j⟩
  show k4_pay1 (F := Ideal) (iblk4 V c 0 t) (iblk4 V c 1 t) (iblk4 V c 2 t) (ix2 p q)
    = Cert.Gcn.head (F := Ideal) (V c main_v63) (V c main_arg6) (V c main_v64) (((cfg4.win 3).blk t).view.emb (ix2 p q))
  rw [out_emb t p q]
  exact pay_eq_head (iblk4 V c 0 t) (iblk4 V c 1 t) (iblk4 V c 2 t) (V c main_v63) (V c main_arg6) (V c main_v64)
    (blockRow t p) p (act_read V c t p) (weight_read V c t) (bias_read V c t) q

end Head

theorem region4 (c : Dev nD) :
    (dat4 (F := Ideal) V c).arrAt 3 cfg4.N = Cert.Gcn.head (F := Ideal) (V c main_v63) (V c main_arg6) (V c main_v64) := by
  exact (dat4 (F := Ideal) V c).arrAt_eq_of_cover 3 _ (fun t _ => Head.flushed_eq V c t) Head.covered

end Cert.KernelIdeal.RegionValue

end
-- ==== Proof.Chain.lean ====
/- What the kernel's result array holds. The run's buffer contents at its segment boundaries are a fold from the launch
   memory: a stretch of host operations applies them, a region replaces its output array by what its blocks leave. Walking
   that fold forward: the first three stretches leave the edge lists and weights (Proof/Prefix.lean); each region's output
   is its stage of the network applied to the region's input arrays (the five region lemmas); each stretch between two
   regions is the aggregation applied to the arrays older segments left, and a bias vector reshaped to one row, which is
   the vector broadcast to one row; and what a segment does not write it leaves as it was. So the result is the network
   of the eight arguments. Each stretch is read over a VARIABLE contents of the buffers before it, then used at the
   boundary's contents, so that no older segment is ever opened. -/
import proofs.«158951_j8383776162491_1_alg».proof.Proof.Gen.KernelIdeal.Frame
import proofs.«158951_j8383776162491_1_alg».proof.Proof.Spec
import proofs.«158951_j8383776162491_1_alg».proof.Proof.LibRow
import proofs.«158951_j8383776162491_1_alg».proof.Proof.Prefix
import proofs.«158951_j8383776162491_1_alg».proof.Proof.Region0
import proofs.«158951_j8383776162491_1_alg».proof.Proof.Region1
import proofs.«158951_j8383776162491_1_alg».proof.Proof.Region2
import proofs.«158951_j8383776162491_1_alg».proof.Proof.Region3
import proofs.«158951_j8383776162491_1_alg».proof.Proof.Region4

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP Cert.KernelIdeal.Prefix Cert.KernelIdeal.RegionValue

/-- A buffer that no operation of a stretch writes holds after the stretch what it held before. -/
macro "stretch_keeps" : tactic => `(tactic|
  (refine StableHlo.after_of_forall_not_mem _ _ (List.forall_iff_forall_mem.mp ?_)
   simp only [hostOps0, hostOps0_1, hostOps0_2, hostOps1, hostOps3, hostOps4, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## The stretches between the regions, over any contents `W` of the buffers before them -/

/-- The stretch after the first product gathers its rows at the sources, scales them by the weights and adds them at the
    targets: the aggregation at width 128 of the four arrays it reads. -/
theorem aggr128_of (W : Valuation τ sig (Elt Ideal)) (s d : (⟨Cert.ReferenceIdeal.S1700000, .i32⟩ : BufTy).Contents (Elt Ideal)) (n : (⟨Cert.ReferenceIdeal.S1700000, .f32⟩ : BufTy).Contents (Elt Ideal)) (hw : (⟨Cert.ReferenceIdeal.S100000x128, .f32⟩ : BufTy).Contents (Elt Ideal))
    (h3 : W (Proc.devRef .tc main_v3) = s) (h6 : W (Proc.devRef .tc main_v6) = d) (h31 : W (Proc.devRef .tc main_v31) = n) (h32 : W (Proc.devRef .tc main_v32) = hw) :
    StableHlo.after hostOps1 W (Proc.devRef .tc main_v45) = Cert.Gcn.aggr128 (F := Ideal) s d n hw := by
  dsimp only [hostOps1]
  after_results_simp
  rw [h3, h6, h31, h32]
  unfold Cert.Gcn.aggr128 Cert.Gcn.wrap
  rfl

/-- The same stretch lays the first bias out as one row: a reshape, which is the broadcast to one row. -/
theorem row128_of (W : Valuation τ sig (Elt Ideal)) (x3 : (⟨Cert.ReferenceIdeal.S128, .f32⟩ : BufTy).Contents (Elt Ideal)) (h : W (Proc.devRef .tc main_arg3) = x3) :
    StableHlo.after hostOps1 W (Proc.devRef .tc main_v46) = val_main_v46 (F := Ideal) x3 := by
  dsimp only [hostOps1]
  after_results
  rw [h]
  unfold val_main_v46
  exact LibRow.shapeCast_row_eq_broadcastInDim 128 x3 _ _

/-- The stretch after the second product: the aggregation at width 64. -/
theorem aggr64_of (W : Valuation τ sig (Elt Ideal)) (s d : (⟨Cert.ReferenceIdeal.S1700000, .i32⟩ : BufTy).Contents (Elt Ideal)) (n : (⟨Cert.ReferenceIdeal.S1700000, .f32⟩ : BufTy).Contents (Elt Ideal)) (hw : (⟨Cert.ReferenceIdeal.S100000x64, .f32⟩ : BufTy).Contents (Elt Ideal))
    (h3 : W (Proc.devRef .tc main_v3) = s) (h6 : W (Proc.devRef .tc main_v6) = d) (h31 : W (Proc.devRef .tc main_v31) = n) (h48 : W (Proc.devRef .tc main_v48) = hw) :
    StableHlo.after hostOps3 W (Proc.devRef .tc main_v61) = Cert.Gcn.aggr64 (F := Ideal) s d n hw := by
  dsimp only [hostOps3]
  after_results_simp
  rw [h3, h6, h31, h48]
  unfold Cert.Gcn.aggr64 Cert.Gcn.wrap
  rfl

/-- The second bias as one row. -/
theorem row64_of (W : Valuation τ sig (Elt Ideal)) (x5 : (⟨Cert.ReferenceIdeal.S64, .f32⟩ : BufTy).Contents (Elt Ideal)) (h : W (Proc.devRef .tc main_arg5) = x5) :
    StableHlo.after hostOps3 W (Proc.devRef .tc main_v62) = val_main_v64 (F := Ideal) x5 := by
  dsimp only [hostOps3]
  after_results
  rw [h]
  unfold val_main_v64
  exact LibRow.shapeCast_row_eq_broadcastInDim 64 x5 _ _

/-- The head's bias as a one-by-one matrix. -/
theorem row1_of (W : Valuation τ sig (Elt Ideal)) (x7 : (⟨Cert.ReferenceIdeal.S1, .f32⟩ : BufTy).Contents (Elt Ideal)) (h : W (Proc.devRef .tc main_arg7) = x7) :
    StableHlo.after hostOps4 W (Proc.devRef .tc main_v64) = val_main_v69 (F := Ideal) x7 := by
  dsimp only [hostOps4]
  after_results
  rw [h]
  unfold val_main_v69
  exact LibRow.shapeCast_row_eq_broadcastInDim 1 x7 _ _

variable (m : (ℓ : Loc nD τ sig) → Buf (Elt Ideal) ℓ) (ρ : Dev nD → PrngReg) (c : Dev nD)

/-! ## What the first three stretches leave untouched: the float arguments -/

theorem arg0_W3 : W3 m ρ c (Proc.devRef .tc main_arg0) = (m ((c.tc : Thread nD τ).loc main_arg0)) :=
  (show StableHlo.after hostOps0_2 (W2 m ρ c) (Proc.devRef .tc main_arg0) = W2 m ρ c (Proc.devRef .tc main_arg0) by stretch_keeps).trans
    ((show StableHlo.after hostOps0_1 (W1 m ρ c) (Proc.devRef .tc main_arg0) = W1 m ρ c (Proc.devRef .tc main_arg0) by stretch_keeps).trans
      (show StableHlo.after hostOps0 (W0 m ρ c) (Proc.devRef .tc main_arg0) = W0 m ρ c (Proc.devRef .tc main_arg0) by stretch_keeps))

theorem arg2_W3 : W3 m ρ c (Proc.devRef .tc main_arg2) = (m ((c.tc : Thread nD τ).loc main_arg2)) :=
  (show StableHlo.after hostOps0_2 (W2 m ρ c) (Proc.devRef .tc main_arg2) = W2 m ρ c (Proc.devRef .tc main_arg2) by stretch_keeps).trans
    ((show StableHlo.after hostOps0_1 (W1 m ρ c) (Proc.devRef .tc main_arg2) = W1 m ρ c (Proc.devRef .tc main_arg2) by stretch_keeps).trans
      (show StableHlo.after hostOps0 (W0 m ρ c) (Proc.devRef .tc main_arg2) = W0 m ρ c (Proc.devRef .tc main_arg2) by stretch_keeps))

theorem arg3_W3 : W3 m ρ c (Proc.devRef .tc main_arg3) = (m ((c.tc : Thread nD τ).loc main_arg3)) :=
  (show StableHlo.after hostOps0_2 (W2 m ρ c) (Proc.devRef .tc main_arg3) = W2 m ρ c (Proc.devRef .tc main_arg3) by stretch_keeps).trans
    ((show StableHlo.after hostOps0_1 (W1 m ρ c) (Proc.devRef .tc main_arg3) = W1 m ρ c (Proc.devRef .tc main_arg3) by stretch_keeps).trans
      (show StableHlo.after hostOps0 (W0 m ρ c) (Proc.devRef .tc main_arg3) = W0 m ρ c (Proc.devRef .tc main_arg3) by stretch_keeps))

theorem arg4_W3 : W3 m ρ c (Proc.devRef .tc main_arg4) = (m ((c.tc : Thread nD τ).loc main_arg4)) :=
  (show StableHlo.after hostOps0_2 (W2 m ρ c) (Proc.devRef .tc main_arg4) = W2 m ρ c (Proc.devRef .tc main_arg4) by stretch_keeps).trans
    ((show StableHlo.after hostOps0_1 (W1 m ρ c) (Proc.devRef .tc main_arg4) = W1 m ρ c (Proc.devRef .tc main_arg4) by stretch_keeps).trans
      (show StableHlo.after hostOps0 (W0 m ρ c) (Proc.devRef .tc main_arg4) = W0 m ρ c (Proc.devRef .tc main_arg4) by stretch_keeps))

theorem arg5_W3 : W3 m ρ c (Proc.devRef .tc main_arg5) = (m ((c.tc : Thread nD τ).loc main_arg5)) :=
  (show StableHlo.after hostOps0_2 (W2 m ρ c) (Proc.devRef .tc main_arg5) = W2 m ρ c (Proc.devRef .tc main_arg5) by stretch_keeps).trans
    ((show StableHlo.after hostOps0_1 (W1 m ρ c) (Proc.devRef .tc main_arg5) = W1 m ρ c (Proc.devRef .tc main_arg5) by stretch_keeps).trans
      (show StableHlo.after hostOps0 (W0 m ρ c) (Proc.devRef .tc main_arg5) = W0 m ρ c (Proc.devRef .tc main_arg5) by stretch_keeps))

theorem arg6_W3 : W3 m ρ c (Proc.devRef .tc main_arg6) = (m ((c.tc : Thread nD τ).loc main_arg6)) :=
  (show StableHlo.after hostOps0_2 (W2 m ρ c) (Proc.devRef .tc main_arg6) = W2 m ρ c (Proc.devRef .tc main_arg6) by stretch_keeps).trans
    ((show StableHlo.after hostOps0_1 (W1 m ρ c) (Proc.devRef .tc main_arg6) = W1 m ρ c (Proc.devRef .tc main_arg6) by stretch_keeps).trans
      (show StableHlo.after hostOps0 (W0 m ρ c) (Proc.devRef .tc main_arg6) = W0 m ρ c (Proc.devRef .tc main_arg6) by stretch_keeps))

theorem arg7_W3 : W3 m ρ c (Proc.devRef .tc main_arg7) = (m ((c.tc : Thread nD τ).loc main_arg7)) :=
  (show StableHlo.after hostOps0_2 (W2 m ρ c) (Proc.devRef .tc main_arg7) = W2 m ρ c (Proc.devRef .tc main_arg7) by stretch_keeps).trans
    ((show StableHlo.after hostOps0_1 (W1 m ρ c) (Proc.devRef .tc main_arg7) = W1 m ρ c (Proc.devRef .tc main_arg7) by stretch_keeps).trans
      (show StableHlo.after hostOps0 (W0 m ρ c) (Proc.devRef .tc main_arg7) = W0 m ρ c (Proc.devRef .tc main_arg7) by stretch_keeps))

/-! ## What later segments leave untouched -/

theorem arg3_W4 : W4 m ρ c (Proc.devRef .tc main_arg3) = (m ((c.tc : Thread nD τ).loc main_arg3)) :=
  (W4_of_ne m ρ c main_arg3 (by decide)).trans (arg3_W3 m ρ c)

theorem src_W4 : W4 m ρ c (Proc.devRef .tc main_v3) = val_main_v3 (F := Ideal) (m ((c.tc : Thread nD τ).loc main_arg1)) :=
  (W4_of_ne m ρ c main_v3 (by decide)).trans (src_W3 m ρ c)
theorem dst_W4 : W4 m ρ c (Proc.devRef .tc main_v6) = val_main_v6 (F := Ideal) (m ((c.tc : Thread nD τ).loc main_arg1)) :=
  (W4_of_ne m ρ c main_v6 (by decide)).trans (dst_W3 m ρ c)
theorem norm_W4 : W4 m ρ c (Proc.devRef .tc main_v31) = val_main_v31 (F := Ideal) (m ((c.tc : Thread nD τ).loc main_arg1)) :=
  (W4_of_ne m ρ c main_v31 (by decide)).trans (norm_W3 m ρ c)

/-- From the first region's exit to the third region's exit a buffer that is none of their arrays and that the stretch
    between them does not write stays put: the step for each of the buffers used later. -/
theorem arg4_W6 : W6 m ρ c (Proc.devRef .tc main_arg4) = (m ((c.tc : Thread nD τ).loc main_arg4)) :=
  (W6_of_ne m ρ c main_arg4 (by decide)).trans ((show StableHlo.after hostOps1 (W4 m ρ c) (Proc.devRef .tc main_arg4) = W4 m ρ c (Proc.devRef .tc main_arg4) by stretch_keeps).trans
    ((W4_of_ne m ρ c main_arg4 (by decide)).trans (arg4_W3 m ρ c)))

theorem arg5_W7 : W7 m ρ c (Proc.devRef .tc main_arg5) = (m ((c.tc : Thread nD τ).loc main_arg5)) :=
  (W7_of_ne m ρ c main_arg5 (by decide)).trans ((W6_of_ne m ρ c main_arg5 (by decide)).trans ((show StableHlo.after hostOps1 (W4 m ρ c) (Proc.devRef .tc main_arg5) = W4 m ρ c (Proc.devRef .tc main_arg5) by stretch_keeps).trans
    ((W4_of_ne m ρ c main_arg5 (by decide)).trans (arg5_W3 m ρ c))))

theorem src_W7 : W7 m ρ c (Proc.devRef .tc main_v3) = val_main_v3 (F := Ideal) (m ((c.tc : Thread nD τ).loc main_arg1)) :=
  (W7_of_ne m ρ c main_v3 (by decide)).trans ((W6_of_ne m ρ c main_v3 (by decide)).trans ((show StableHlo.after hostOps1 (W4 m ρ c) (Proc.devRef .tc main_v3) = W4 m ρ c (Proc.devRef .tc main_v3) by stretch_keeps).trans (src_W4 m ρ c)))
theorem dst_W7 : W7 m ρ c (Proc.devRef .tc main_v6) = val_main_v6 (F := Ideal) (m ((c.tc : Thread nD τ).loc main_arg1)) :=
  (W7_of_ne m ρ c main_v6 (by decide)).trans ((W6_of_ne m ρ c main_v6 (by decide)).trans ((show StableHlo.after hostOps1 (W4 m ρ c) (Proc.devRef .tc main_v6) = W4 m ρ c (Proc.devRef .tc main_v6) by stretch_keeps).trans (dst_W4 m ρ c)))
theorem norm_W7 : W7 m ρ c (Proc.devRef .tc main_v31) = val_main_v31 (F := Ideal) (m ((c.tc : Thread nD τ).loc main_arg1)) :=
  (W7_of_ne m ρ c main_v31 (by decide)).trans ((W6_of_ne m ρ c main_v31 (by decide)).trans ((show StableHlo.after hostOps1 (W4 m ρ c) (Proc.devRef .tc main_v31) = W4 m ρ c (Proc.devRef .tc main_v31) by stretch_keeps).trans (norm_W4 m ρ c)))

theorem arg7_W9 : W9 m ρ c (Proc.devRef .tc main_arg7) = (m ((c.tc : Thread nD τ).loc main_arg7)) :=
  (W9_of_ne m ρ c main_arg7 (by decide)).trans ((show StableHlo.after hostOps3 (W7 m ρ c) (Proc.devRef .tc main_arg7) = W7 m ρ c (Proc.devRef .tc main_arg7) by stretch_keeps).trans
    ((W7_of_ne m ρ c main_arg7 (by decide)).trans ((W6_of_ne m ρ c main_arg7 (by decide)).trans ((show StableHlo.after hostOps1 (W4 m ρ c) (Proc.devRef .tc main_arg7) = W4 m ρ c (Proc.devRef .tc main_arg7) by stretch_keeps).trans
      ((W4_of_ne m ρ c main_arg7 (by decide)).trans (arg7_W3 m ρ c))))))

theorem arg6_W10 : W10 m ρ c (Proc.devRef .tc main_arg6) = (m ((c.tc : Thread nD τ).loc main_arg6)) :=
  (show StableHlo.after hostOps4 (W9 m ρ c) (Proc.devRef .tc main_arg6) = W9 m ρ c (Proc.devRef .tc main_arg6) by stretch_keeps).trans ((W9_of_ne m ρ c main_arg6 (by decide)).trans ((show StableHlo.after hostOps3 (W7 m ρ c) (Proc.devRef .tc main_arg6) = W7 m ρ c (Proc.devRef .tc main_arg6) by stretch_keeps).trans
    ((W7_of_ne m ρ c main_arg6 (by decide)).trans ((W6_of_ne m ρ c main_arg6 (by decide)).trans ((show StableHlo.after hostOps1 (W4 m ρ c) (Proc.devRef .tc main_arg6) = W4 m ρ c (Proc.devRef .tc main_arg6) by stretch_keeps).trans
      ((W4_of_ne m ρ c main_arg6 (by decide)).trans (arg6_W3 m ρ c)))))))

/-! ## The walk -/

/-- After region 0: the first product. -/
theorem hw0_W4 : W4 m ρ c (Proc.devRef .tc main_v32) = Cert.Gcn.mm128 (F := Ideal) (m ((c.tc : Thread nD τ).loc main_arg0)) (m ((c.tc : Thread nD τ).loc main_arg2)) := by
  refine (W4_arr m ρ c 2).trans ((region0 (V3 m ρ) c).trans ?_)
  show Cert.Gcn.mm128 (F := Ideal) (W3 m ρ c (Proc.devRef .tc main_arg0)) (W3 m ρ c (Proc.devRef .tc main_arg2)) = _
  rw [arg0_W3, arg2_W3]

/-- After the stretch that follows: the first aggregation, and the first bias as a row. -/
theorem agg0_W5 : W5 m ρ c (Proc.devRef .tc main_v45) = Cert.Gcn.aggr128 (F := Ideal) (val_main_v3 (m ((c.tc : Thread nD τ).loc main_arg1))) (val_main_v6 (m ((c.tc : Thread nD τ).loc main_arg1))) (val_main_v31 (m ((c.tc : Thread nD τ).loc main_arg1)))
    (Cert.Gcn.mm128 (m ((c.tc : Thread nD τ).loc main_arg0)) (m ((c.tc : Thread nD τ).loc main_arg2))) :=
  aggr128_of (W4 m ρ c) _ _ _ _ (src_W4 m ρ c) (dst_W4 m ρ c) (norm_W4 m ρ c) (hw0_W4 m ρ c)

theorem row0_W5 : W5 m ρ c (Proc.devRef .tc main_v46) = val_main_v46 (F := Ideal) (m ((c.tc : Thread nD τ).loc main_arg3)) :=
  row128_of (W4 m ρ c) _ (arg3_W4 m ρ c)

/-- After region 1: the first layer's output `h₁`. -/
theorem h1_W6 : W6 m ρ c (Proc.devRef .tc main_v47) = Cert.Gcn.br128 (F := Ideal)
    (Cert.Gcn.aggr128 (val_main_v3 (m ((c.tc : Thread nD τ).loc main_arg1))) (val_main_v6 (m ((c.tc : Thread nD τ).loc main_arg1))) (val_main_v31 (m ((c.tc : Thread nD τ).loc main_arg1))) (Cert.Gcn.mm128 (m ((c.tc : Thread nD τ).loc main_arg0)) (m ((c.tc : Thread nD τ).loc main_arg2))))
    (val_main_v46 (m ((c.tc : Thread nD τ).loc main_arg3))) := by
  refine (W6_arr m ρ c 2).trans ((region1 (V5 m ρ) c).trans ?_)
  show Cert.Gcn.br128 (F := Ideal) (W5 m ρ c (Proc.devRef .tc main_v45)) (W5 m ρ c (Proc.devRef .tc main_v46)) = _
  rw [agg0_W5, row0_W5]

/-- After region 2: the second product. -/
theorem hw1_W7 : W7 m ρ c (Proc.devRef .tc main_v48) = Cert.Gcn.mm64 (F := Ideal)
    (Cert.Gcn.br128 (Cert.Gcn.aggr128 (val_main_v3 (m ((c.tc : Thread nD τ).loc main_arg1))) (val_main_v6 (m ((c.tc : Thread nD τ).loc main_arg1))) (val_main_v31 (m ((c.tc : Thread nD τ).loc main_arg1))) (Cert.Gcn.mm128 (m ((c.tc : Thread nD τ).loc main_arg0)) (m ((c.tc : Thread nD τ).loc main_arg2))))
      (val_main_v46 (m ((c.tc : Thread nD τ).loc main_arg3)))) (m ((c.tc : Thread nD τ).loc main_arg4)) := by
  refine (W7_arr m ρ c 2).trans ((region2 (V6 m ρ) c).trans ?_)
  show Cert.Gcn.mm64 (F := Ideal) (W6 m ρ c (Proc.devRef .tc main_v47)) (W6 m ρ c (Proc.devRef .tc main_arg4)) = _
  rw [h1_W6, arg4_W6]

/-- After the stretch that follows region 2: the second aggregation, and the second bias as a row. -/
theorem agg1_W8 : W8 m ρ c (Proc.devRef .tc main_v61) = Cert.Gcn.aggr64 (F := Ideal) (val_main_v3 (m ((c.tc : Thread nD τ).loc main_arg1))) (val_main_v6 (m ((c.tc : Thread nD τ).loc main_arg1))) (val_main_v31 (m ((c.tc : Thread nD τ).loc main_arg1))) (Cert.Gcn.mm64 (Cert.Gcn.br128 (Cert.Gcn.aggr128 (val_main_v3 (m ((c.tc : Thread nD τ).loc main_arg1))) (val_main_v6 (m ((c.tc : Thread nD τ).loc main_arg1))) (val_main_v31 (m ((c.tc : Thread nD τ).loc main_arg1))) (Cert.Gcn.mm128 (m ((c.tc : Thread nD τ).loc main_arg0)) (m ((c.tc : Thread nD τ).loc main_arg2)))) (val_main_v46 (m ((c.tc : Thread nD τ).loc main_arg3)))) (m ((c.tc : Thread nD τ).loc main_arg4))) :=
  aggr64_of (W7 m ρ c) _ _ _ _ (src_W7 m ρ c) (dst_W7 m ρ c) (norm_W7 m ρ c) (hw1_W7 m ρ c)

theorem row1_W8 : W8 m ρ c (Proc.devRef .tc main_v62) = val_main_v64 (F := Ideal) (m ((c.tc : Thread nD τ).loc main_arg5)) :=
  row64_of (W7 m ρ c) _ (arg5_W7 m ρ c)

/-- After region 3: the second layer's output `h₂`. -/
theorem h2_W9 : W9 m ρ c (Proc.devRef .tc main_v63) = Cert.Gcn.br64 (F := Ideal) (Cert.Gcn.aggr64 (val_main_v3 (m ((c.tc : Thread nD τ).loc main_arg1))) (val_main_v6 (m ((c.tc : Thread nD τ).loc main_arg1))) (val_main_v31 (m ((c.tc : Thread nD τ).loc main_arg1))) (Cert.Gcn.mm64 (Cert.Gcn.br128 (Cert.Gcn.aggr128 (val_main_v3 (m ((c.tc : Thread nD τ).loc main_arg1))) (val_main_v6 (m ((c.tc : Thread nD τ).loc main_arg1))) (val_main_v31 (m ((c.tc : Thread nD τ).loc main_arg1))) (Cert.Gcn.mm128 (m ((c.tc : Thread nD τ).loc main_arg0)) (m ((c.tc : Thread nD τ).loc main_arg2)))) (val_main_v46 (m ((c.tc : Thread nD τ).loc main_arg3)))) (m ((c.tc : Thread nD τ).loc main_arg4)))) (val_main_v64 (m ((c.tc : Thread nD τ).loc main_arg5))) := by
  refine (W9_arr m ρ c 2).trans ((region3 (V8 m ρ) c).trans ?_)
  show Cert.Gcn.br64 (F := Ideal) (W8 m ρ c (Proc.devRef .tc main_v61)) (W8 m ρ c (Proc.devRef .tc main_v62)) = _
  rw [agg1_W8, row1_W8]

/-- The last stretch only lays the head's bias out as a one-by-one matrix; it leaves `h₂` where it is. -/
theorem h2_W10 : W10 m ρ c (Proc.devRef .tc main_v63) = Cert.Gcn.br64 (F := Ideal) (Cert.Gcn.aggr64 (val_main_v3 (m ((c.tc : Thread nD τ).loc main_arg1))) (val_main_v6 (m ((c.tc : Thread nD τ).loc main_arg1))) (val_main_v31 (m ((c.tc : Thread nD τ).loc main_arg1))) (Cert.Gcn.mm64 (Cert.Gcn.br128 (Cert.Gcn.aggr128 (val_main_v3 (m ((c.tc : Thread nD τ).loc main_arg1))) (val_main_v6 (m ((c.tc : Thread nD τ).loc main_arg1))) (val_main_v31 (m ((c.tc : Thread nD τ).loc main_arg1))) (Cert.Gcn.mm128 (m ((c.tc : Thread nD τ).loc main_arg0)) (m ((c.tc : Thread nD τ).loc main_arg2)))) (val_main_v46 (m ((c.tc : Thread nD τ).loc main_arg3)))) (m ((c.tc : Thread nD τ).loc main_arg4)))) (val_main_v64 (m ((c.tc : Thread nD τ).loc main_arg5))) :=
  (show StableHlo.after hostOps4 (W9 m ρ c) (Proc.devRef .tc main_v63) = W9 m ρ c (Proc.devRef .tc main_v63) by stretch_keeps).trans (h2_W9 m ρ c)

theorem rowl_W10 : W10 m ρ c (Proc.devRef .tc main_v64) = val_main_v69 (F := Ideal) (m ((c.tc : Thread nD τ).loc main_arg7)) :=
  row1_of (W9 m ρ c) _ (arg7_W9 m ρ c)

/-- The result array at the last boundary's contents is the network of the eight launch arrays. -/
theorem result :
    W11 (F := Ideal) m ρ c (Proc.devRef .tc main_v65) =
      Cert.Gcn.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W11_arr m ρ c 3).trans ((region4 (V10 m ρ) c).trans ?_)
  show Cert.Gcn.head (F := Ideal) (W10 m ρ c (Proc.devRef .tc main_v63)) (W10 m ρ c (Proc.devRef .tc main_arg6)) (W10 m ρ c (Proc.devRef .tc main_v64)) = _
  rw [h2_W10, arg6_W10, rowl_W10]
  unfold Cert.Gcn.out Cert.Gcn.net
  rfl

end Cert.KernelIdeal.Chain

end
-- ==== Proof.lean ====
/- The kernel against its reference: a two-layer graph convolution with a linear head, `out = [-z, z]` with
   `z = h₂ · Wl + bl`, `h₂ = max (A (h₁ · W₁) + b₁) 0`, `h₁ = max (A (x · W₀) + b₀) 0`, where `A` gathers rows at the edges'
   sources, scales them by the edges' weights and adds them at the edges' targets (Proof/Spec.lean). The kernel computes the
   two products, the two bias-and-rectifier steps and the head in five tiled regions of twenty blocks of 5000 rows, and
   everything else by the host operations the reference applies. On the extended reals each region's array is its stage
   applied to whole arrays: a product tiled by rows is the product; a matrix product into a zero accumulator is the
   contraction; a change of float format is the identity; a bias reshaped to one row is the bias broadcast to one row; and
   `0 - z = -z`. No law used here needs finiteness, so the precondition is not opened.
   The three frames are the programs' runs with the result dropped; the idealization rewrote nothing, so `preserves` is
   trivial; `algebraic` puts the kernel's run (its result read at the last boundary, then `Chain.result`) beside the
   reference's run (its composed term, then `Gcn.ref_eq`) at arguments that agree. -/
import proofs.«158951_j8383776162491_1_alg».proof.Defs
import proofs.«158951_j8383776162491_1_alg».proof.Proof.Gen.Kernel
import proofs.«158951_j8383776162491_1_alg».proof.Proof.Gen.Kernel.Skeleton
import proofs.«158951_j8383776162491_1_alg».proof.Proof.Gen.Kernel.Launch
import proofs.«158951_j8383776162491_1_alg».proof.Proof.Gen.Kernel.Points
import proofs.«158951_j8383776162491_1_alg».proof.Proof.Gen.Kernel.Frame
import proofs.«158951_j8383776162491_1_alg».proof.Proof.Gen.KernelIdeal
import proofs.«158951_j8383776162491_1_alg».proof.Proof.Gen.KernelIdeal.Skeleton
import proofs.«158951_j8383776162491_1_alg».proof.Proof.Gen.KernelIdeal.Launch
import proofs.«158951_j8383776162491_1_alg».proof.Proof.Gen.KernelIdeal.Points
import proofs.«158951_j8383776162491_1_alg».proof.Proof.Gen.KernelIdeal.Frame
import proofs.«158951_j8383776162491_1_alg».proof.Proof.Gen.ReferenceIdeal
import proofs.«158951_j8383776162491_1_alg».proof.Proof.Gen.Pre_finite_inputs
import proofs.«158951_j8383776162491_1_alg».proof.Proof.RefRun
import proofs.«158951_j8383776162491_1_alg».proof.Proof.RefRead
import proofs.«158951_j8383776162491_1_alg».proof.Proof.Spec
import proofs.«158951_j8383776162491_1_alg».proof.Proof.RunValue
import proofs.«158951_j8383776162491_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at the network of the arguments: the kernel's by its run and the walk through
    its segment boundaries, the reference's by its run and its stages; the arguments agree, so the two are one array. -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.RunValue.run (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7⟩ := hagree c
    rw [(h c).1, Cert.ReferenceIdeal.ReadP.val_main_v76_eq, Cert.Gcn.ref_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
